-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1000x1 .f32 .bf16
  ∧ IdealRules.truncf_extf.Statement Cert.KernelIdeal.S1000x1 .f32 .bf16
  ∧ IdealRules.truncf_extf.Statement Cert.KernelIdeal.S1000x1 .f32 .bf16
  ∧ IdealRules.truncf_extf.Statement Cert.KernelIdeal.S1000x1 .f32 .bf16
  ∧ IdealRules.truncf_extf.Statement Cert.KernelIdeal.S1000x1 .f32 .bf16
  ∧ IdealRules.truncf_extf.Statement Cert.KernelIdeal.S1000x1 .f32 .bf16
  ∧ IdealRules.truncf_extf.Statement Cert.KernelIdeal.S1000x1 .f32 .bf16
  ∧ IdealRules.truncf_extf.Statement Cert.KernelIdeal.S1000x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S1000x256 : Shape := ⟨2, ![1000, 256]⟩
abbrev S1000 : Shape := ⟨1, ![1000]⟩
abbrev S131072 : Shape := ⟨1, ![131072]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_

variable [Facts]

def fn {F : FTy → Type} [FloatOps F] (main_arg0 : FVec F S131072x256 .f32) (main_arg1 : FVec F S1000x256 .f32) (main_arg2 : IVec S1000 1) (main_arg3 : IVec S131072 32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S1000x256 .f32 := Host.absf main_arg1
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  main_v8
-- ==== Kernel.lean ====
abbrev S131072x256 : Shape := ⟨2, ![131072, 256]⟩
abbrev S1000x256 : Shape := ⟨2, ![1000, 256]⟩
abbrev S1000 : Shape := ⟨1, ![1000]⟩
abbrev S131072 : Shape := ⟨1, ![131072]⟩
abbrev S2x1000x256 : Shape := ⟨3, ![2, 1000, 256]⟩
abbrev S2x1000x1 : Shape := ⟨3, ![2, 1000, 1]⟩
abbrev S8192x256 : Shape := ⟨2, ![8192, 256]⟩
abbrev S8192 : Shape := ⟨1, ![8192]⟩
abbrev S1x1000x256 : Shape := ⟨3, ![1, 1000, 256]⟩
abbrev S1x1000x1 : Shape := ⟨3, ![1, 1000, 1]⟩
abbrev S1000x1 : Shape := ⟨2, ![1000, 1]⟩
abbrev S2048x256 : Shape := ⟨2, ![2048, 256]⟩
abbrev S2048 : Shape := ⟨1, ![2048]⟩
abbrev S1x2048 : Shape := ⟨2, ![1, 2048]⟩
abbrev S1000x2048 : Shape := ⟨2, ![1000, 2048]⟩
abbrev S_ : Shape := ⟨0, ![]⟩

abbrev nBuf : Space → Nat
  | .hbm => 53
  | .vmem => 10
  | .smem => 0
  | _ => 0

abbrev bufTy : (tb : Table) → Fin (tcTables nBuf tb) → BufTy
  | .hbm, ⟨0, _⟩ => ⟨S131072x256, .f32⟩
  | .hbm, ⟨1, _⟩ => ⟨S1000x256, .f32⟩
  | .hbm, ⟨2, _⟩ => ⟨S1000, .i1⟩
  | .hbm, ⟨3, _⟩ => ⟨S131072, .i32⟩
  | .hbm, ⟨4, _⟩ => ⟨S2x1000x256, .f32⟩
  | .hbm, ⟨5, _⟩ => ⟨S2x1000x1, .f32⟩
  | .hbm, ⟨6, _⟩ => ⟨S_, .f32⟩
  | .hbm, ⟨7, _⟩ => ⟨S1000x256, .f32⟩
  | .hbm, ⟨8, _⟩ => ⟨S_, .f32⟩
  | .hbm, ⟨9, _⟩ => ⟨S1000x1, .f32⟩
  | .hbm, ⟨10, _⟩ => ⟨S1000, .f32⟩
  | .hbm, ⟨11, _⟩ => ⟨S_, .f32⟩
  | .hbm, ⟨12, _⟩ => ⟨S1000, .f32⟩
  | .hbm, ⟨13, _⟩ => ⟨S1000, .i1⟩
  | .hbm, ⟨14, _⟩ => ⟨S_, .f32⟩
  | .hbm, ⟨15, _⟩ => ⟨S1000, .f32⟩
  | .hbm, ⟨16, _⟩ => ⟨S1000, .f32⟩
  | .hbm, ⟨17, _⟩ => ⟨S1000x1, .f32⟩
  | .hbm, ⟨18, _⟩ => ⟨S1000x256, .f32⟩
  | .hbm, ⟨19, _⟩ => ⟨S1000x256, .f32⟩
  | .hbm, ⟨20, _⟩ => ⟨S1000x256, .f32⟩
  | .hbm, ⟨21, _⟩ => ⟨S_, .f32⟩
  | .hbm, ⟨22, _⟩ => ⟨S1000, .f32⟩
  | .hbm, ⟨23, _⟩ => ⟨S1000x1, .f32⟩
  | .hbm, ⟨24, _⟩ => ⟨S1000x1, .f32⟩
  | .hbm, ⟨25, _⟩ => ⟨S_, .f32⟩
  | .hbm, ⟨26, _⟩ => ⟨S1000x1, .f32⟩
  | .hbm, ⟨27, _⟩ => ⟨S1000x1, .f32⟩
  | .hbm, ⟨28, _⟩ => ⟨S1000x256, .f32⟩
  | .hbm, ⟨29, _⟩ => ⟨S1000x256, .f32⟩
  | .hbm, ⟨30, _⟩ => ⟨S_, .f32⟩
  | .hbm, ⟨31, _⟩ => ⟨S1000x256, .f32⟩
  | .hbm, ⟨32, _⟩ => ⟨S1000x256, .f32⟩
  | .hbm, ⟨33, _⟩ => ⟨S_, .f32⟩
  | .hbm, ⟨34, _⟩ => ⟨S1000x256, .f32⟩
  | .hbm, ⟨35, _⟩ => ⟨S1000x256, .f32⟩
  | .hbm, ⟨36, _⟩ => ⟨S1000x256, .f32⟩
  | .hbm, ⟨37, _⟩ => ⟨S1000x256, .f32⟩
  | .hbm, ⟨38, _⟩ => ⟨S_, .f32⟩
  | .hbm, ⟨39, _⟩ => ⟨S1000, .f32⟩
  | .hbm, ⟨40, _⟩ => ⟨S1000x1, .f32⟩
  | .hbm, ⟨41, _⟩ => ⟨S1000x1, .f32⟩
  | .hbm, ⟨42, _⟩ => ⟨S_, .f32⟩
  | .hbm, ⟨43, _⟩ => ⟨S1000x1, .f32⟩
  | .hbm, ⟨44, _⟩ => ⟨S1000x1, .f32⟩
  | .hbm, ⟨45, _⟩ => ⟨S1000x256, .f32⟩
  | .hbm, ⟨46, _⟩ => ⟨S1000x256, .f32⟩
  | .hbm, ⟨47, _⟩ => ⟨S1000x1, .i1⟩
  | .hbm, ⟨48, _⟩ => ⟨S1000x256, .i1⟩
  | .hbm, ⟨49, _⟩ => ⟨S1000x256, .f32⟩
  | .hbm, ⟨50, _⟩ => ⟨S1000x1, .i1⟩
  | .hbm, ⟨51, _⟩ => ⟨S1000x256, .i1⟩
  | .hbm, ⟨52, _⟩ => ⟨S1000x256, .f32⟩
  | .local _ .vmem, ⟨0, _⟩ => ⟨S8192x256, .f32⟩
  | .local _ .vmem, ⟨1, _⟩ => ⟨S8192x256, .f32⟩
  | .local _ .vmem, ⟨2, _⟩ => ⟨S8192, .i32⟩
  | .local _ .vmem, ⟨3, _⟩ => ⟨S8192, .i32⟩
  | .local _ .vmem, ⟨4, _⟩ => ⟨S1x1000x256, .f32⟩
  | .local _ .vmem, ⟨5, _⟩ => ⟨S1x1000x256, .f32⟩
  | .local _ .vmem, ⟨6, _⟩ => ⟨S1x1000x1, .f32⟩
  | .local _ .vmem, ⟨7, _⟩ => ⟨S1x1000x1, .f32⟩
  | .local _ .vmem, ⟨8, _⟩ => ⟨S1000x256, .f32⟩
  | .local _ .vmem, ⟨9, _⟩ => ⟨S1000x1, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_v33 : Ref sig .tc := ⟨.hbm, 49, rfl⟩
abbrev main_v34 : Ref sig .tc := ⟨.hbm, 50, rfl⟩
abbrev main_call1_v0 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_1 : BitVec 32 := 0#32
  let c4_i32 : BitVec 32 := 4#32
  let v4 : BitVec 32 := Scalar.addi c0_i32_1 c4_i32
  let c1_i32 : BitVec 32 := 1#32
  ⟨c0_i32_1, v4, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg8 : BitVec 32 := Scf.iv c0_i32_1 c1_i32 k0_t1
  let c1_i32_4 : BitVec 32 := 1#32
  let v8 : BitVec 32 := Scalar.muli arg8 c1_i32_4
  let v9 : BitVec 32 := Scalar.addi c0_i32_5 v8
  let c2048_i32 : BitVec 32 := 2048#32
  let v10 : BitVec 32 := Scalar.muli v9 c2048_i32
  v10
def k0_off1 (k0_t1 : Fin k0_t1_loop.trips) : Fin 2 → Nat :=
  let c0_i32_5 : BitVec 32 := 0#32
  let c0_i32_1 : BitVec 32 := 0#32
  let c1_i32 : BitVec 32 := 1#32
  let arg8 : BitVec 32 := Scf.iv c0_i32_1 c1_i32 k0_t1
  let c1_i32_4 : BitVec 32 := 1#32
  let v8 : BitVec 32 := Scalar.muli arg8 c1_i32_4
  let v9 : BitVec 32 := Scalar.addi c0_i32_5 v8
  let c2048_i32 : BitVec 32 := 2048#32
  let v10 : BitVec 32 := Scalar.muli v9 c2048_i32
  let v11 : BitVec 32 := v10
  let v12 : Index := Scalar.indexCast v11
  let c0 : Index := 0#32
  ![v12.toNat, 0]
def k0_off2 (k0_t1 : Fin k0_t1_loop.trips) : Fin 1 → Nat :=
  let c0_i32_5 : BitVec 32 := 0#32
  let c0_i32_1 : BitVec 32 := 0#32
  let c1_i32 : BitVec 32 := 1#32
  let arg8 : BitVec 32 := Scf.iv c0_i32_1 c1_i32 k0_t1
  let c1_i32_4 : BitVec 32 := 1#32
  let v8 : BitVec 32 := Scalar.muli arg8 c1_i32_4
  let v9 : BitVec 32 := Scalar.addi c0_i32_5 v8
  let c2048_i32 : BitVec 32 := 2048#32
  let v10 : BitVec 32 := Scalar.muli v9 c2048_i32
  let v11 : BitVec 32 := v10
  let v14 : Index := Scalar.indexCast v11
  ![v14.toNat]
def k0_cond2 (i : grid0.Coords) : BitVec 1 :=
  let arg1 : BitVec 32 := BitVec.ofNat 32 (i 1).val
  let c7_i32 : BitVec 32 := 7#32
  let v5 : BitVec 1 := Scalar.cmpi .eq arg1 c7_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x1_d0_w32 : S1000x1.Iotas .tc 32 [0]
  h_S2048x256 : 0 < S2048x256.numel
  h_S2048 : 0 < S2048.numel
  shapeCasts_S2048_S1x2048 : S2048.ShapeCasts S1x2048
  broadcasts_S1000x1_S1000x2048 : S1000x1.Broadcasts S1000x2048
  broadcasts_S1x2048_S1000x2048 : S1x2048.Broadcasts S1000x2048
  natLt_1_32 : 1 < 32
  bitsLt_bf16_f32 : FTy.bits .bf16 < FTy.bits .f32
  slices_S1000x2048_o0_0_S1000x256 : S1000x2048.Slices ![0, 0] S1000x256
  reduces_S1000x256_S1000 : S1000x256.Reduces [1] S1000
  shapeCasts_S1000_S1000x1 : S1000.ShapeCasts S1000x1
  slices_S1000x2048_o0_256_S1000x256 : S1000x2048.Slices ![0, 256] S1000x256
  slices_S1000x2048_o0_512_S1000x256 : S1000x2048.Slices ![0, 512] S1000x256
  slices_S1000x2048_o0_768_S1000x256 : S1000x2048.Slices ![0, 768] S1000x256
  slices_S1000x2048_o0_1024_S1000x256 : S1000x2048.Slices ![0, 1024] S1000x256
  slices_S1000x2048_o0_1280_S1000x256 : S1000x2048.Slices ![0, 1280] S1000x256
  slices_S1000x2048_o0_1536_S1000x256 : S1000x2048.Slices ![0, 1536] S1000x256
  slices_S1000x2048_o0_1792_S1000x256 : S1000x2048.Slices ![0, 1792] S1000x256
  shapeCasts_S1000x256_S1x1000x256 : S1000x256.ShapeCasts S1x1000x256
  inb_S1x1000x256_S1x1000x256_0_0_0 : ∀ a, (![0, 0, 0] : Fin 3 → Nat) a + S1x1000x256.size a ≤ S1x1000x256.size a
  h_S1x1000x256 : 0 < S1x1000x256.numel
  shapeCasts_S1000x1_S1x1000x1 : S1000x1.ShapeCasts S1x1000x1
  inb_S1x1000x1_S1x1000x1_0_0_0 : ∀ a, (![0, 0, 0] : Fin 3 → Nat) a + S1x1000x1.size a ≤ S1x1000x1.size a
  h_S1x1000x1 : 0 < S1x1000x1.numel
  reducesTo_S2x1000x256_S1000x256_d0 : S2x1000x256.ReducesTo [0] S1000x256
  h_S_ : 0 < S_.numel
  reducesTo_S2x1000x1_S1000x1_d0 : S2x1000x1.ReducesTo [0] S1000x1
  shapeCasts_S1000x1_S1000 : S1000x1.ShapeCasts S1000
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  reducesTo_S1000x256_S1000_d1 : S1000x256.ReducesTo [1] S1000
  bcast_S_S1000x1 : S_.BroadcastsInDim S1000x1 (![] : Fin 0 → Fin S1000x1.rank)
  bcast_S_S1000x256 : S_.BroadcastsInDim S1000x256 (![] : Fin 0 → Fin S1000x256.rank)
  dot_S1000x2048_S2048x256_S1000x256_1_0_0_1_n_n_wf : DotDims.WF S1000x2048 S2048x256 S1000x256 [1] [0] [0] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x256.size a ≤ S8192x256.size a
  k0_off2_inb : ∀ k0_t1 : Fin k0_t1_loop.trips, ∀ a, (k0_off2 k0_t1) a + S2048.size a ≤ S8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S131072x256.size a
  hwx0_0 : ∀ i : grid0.Coords, EltTy.bits .f32 = 32 ∨ (Rect.block (s := S131072x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S131072.size a
  hwx0_1 : ∀ i : grid0.Coords, EltTy.bits .i32 = 32 ∨ (Rect.block (s := S131072) S8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x256.size a ≤ S2x1000x256.size a
  hwx0_2 : ∀ i : grid0.Coords, EltTy.bits .f32 = 32 ∨ (Rect.block (s := S2x1000x256) S1x1000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1000x1.size a ≤ S2x1000x1.size a
  hwx0_3 : ∀ i : grid0.Coords, EltTy.bits .f32 = 32 ∨ (Rect.block (s := S2x1000x1) S1x1000x1.size (cc0_transform_3 i) (hinb0_3 i)).WholeWords (EltTy.packing .f32)

variable [Facts₀]

def dot_S1000x2048_S2048x256_S1000x256_1_0_0_1_n_n : DotDims S1000x2048 S2048x256 S1000x256 where
  lhsContracting := [1]
  rhsContracting := [0]
  lhsNonContracting := [0]
  rhsNonContracting := [1]
  lhsBatch := []
  rhsBatch := []
  wf := dot_S1000x2048_S2048x256_S1000x256_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S131072x256 : Shape := ⟨2, ![131072, 256]⟩
abbrev S1000x256 : Shape := ⟨2, ![1000, 256]⟩
abbrev S1000 : Shape := ⟨1, ![1000]⟩
abbrev S131072 : Shape := ⟨1, ![131072]⟩
abbrev S_ : Shape := ⟨0, ![]⟩
abbrev S131072x1 : Shape := ⟨2, ![131072, 1]⟩
abbrev S1000x1 : Shape := ⟨2, ![1000, 1]⟩

abbrev nBuf : Space → Nat
  | .hbm => 56
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S1000x256, .f32⟩
  | .hbm, ⟨2, _⟩ => ⟨S1000, .i1⟩
  | .hbm, ⟨3, _⟩ => ⟨S131072, .i32⟩
  | .hbm, ⟨4, _⟩ => ⟨S_, .f32⟩
  | .hbm, ⟨5, _⟩ => ⟨S1000x256, .f32⟩
  | .hbm, ⟨6, _⟩ => ⟨S131072x1, .i32⟩
  | .hbm, ⟨7, _⟩ => ⟨S1000x256, .f32⟩
  | .hbm, ⟨8, _⟩ => ⟨S_, .f32⟩
  | .hbm, ⟨9, _⟩ => ⟨S131072, .f32⟩
  | .hbm, ⟨10, _⟩ => ⟨S_, .f32⟩
  | .hbm, ⟨11, _⟩ => ⟨S1000, .f32⟩
  | .hbm, ⟨12, _⟩ => ⟨S131072x1, .i32⟩
  | .hbm, ⟨13, _⟩ => ⟨S1000, .f32⟩
  | .hbm, ⟨14, _⟩ => ⟨S_, .f32⟩
  | .hbm, ⟨15, _⟩ => ⟨S1000, .f32⟩
  | .hbm, ⟨16, _⟩ => ⟨S1000, .i1⟩
  | .hbm, ⟨17, _⟩ => ⟨S_, .f32⟩
  | .hbm, ⟨18, _⟩ => ⟨S1000, .f32⟩
  | .hbm, ⟨19, _⟩ => ⟨S1000, .f32⟩
  | .hbm, ⟨20, _⟩ => ⟨S1000x1, .f32⟩
  | .hbm, ⟨21, _⟩ => ⟨S1000x256, .f32⟩
  | .hbm, ⟨22, _⟩ => ⟨S1000x256, .f32⟩
  | .hbm, ⟨23, _⟩ => ⟨S1000x256, .f32⟩
  | .hbm, ⟨24, _⟩ => ⟨S_, .f32⟩
  | .hbm, ⟨25, _⟩ => ⟨S1000, .f32⟩
  | .hbm, ⟨26, _⟩ => ⟨S1000x1, .f32⟩
  | .hbm, ⟨27, _⟩ => ⟨S1000x1, .f32⟩
  | .hbm, ⟨28, _⟩ => ⟨S_, .f32⟩
  | .hbm, ⟨29, _⟩ => ⟨S1000x1, .f32⟩
  | .hbm, ⟨30, _⟩ => ⟨S1000x1, .f32⟩
  | .hbm, ⟨31, _⟩ => ⟨S1000x256, .f32⟩
  | .hbm, ⟨32, _⟩ => ⟨S1000x256, .f32⟩
  | .hbm, ⟨33, _⟩ => ⟨S_, .f32⟩
  | .hbm, ⟨34, _⟩ => ⟨S1000x256, .f32⟩
  | .hbm, ⟨35, _⟩ => ⟨S1000x256, .f32⟩
  | .hbm, ⟨36, _⟩ => ⟨S_, .f32⟩
  | .hbm, ⟨37, _⟩ => ⟨S1000x256, .f32⟩
  | .hbm, ⟨38, _⟩ => ⟨S1000x256, .f32⟩
  | .hbm, ⟨39, _⟩ => ⟨S1000x256, .f32⟩
  | .hbm, ⟨40, _⟩ => ⟨S1000x256, .f32⟩
  | .hbm, ⟨41, _⟩ => ⟨S_, .f32⟩
  | .hbm, ⟨42, _⟩ => ⟨S1000, .f32⟩
  | .hbm, ⟨43, _⟩ => ⟨S1000x1, .f32⟩
  | .hbm, ⟨44, _⟩ => ⟨S1000x1, .f32⟩
  | .hbm, ⟨45, _⟩ => ⟨S_, .f32⟩
  | .hbm, ⟨46, _⟩ => ⟨S1000x1, .f32⟩
  | .hbm, ⟨47, _⟩ => ⟨S1000x1, .f32⟩
  | .hbm, ⟨48, _⟩ => ⟨S1000x256, .f32⟩
  | .hbm, ⟨49, _⟩ => ⟨S1000x256, .f32⟩
  | .hbm, ⟨50, _⟩ => ⟨S1000x1, .i1⟩
  | .hbm, ⟨51, _⟩ => ⟨S1000x256, .i1⟩
  | .hbm, ⟨52, _⟩ => ⟨S1000x256, .f32⟩
  | .hbm, ⟨53, _⟩ => ⟨S1000x1, .i1⟩
  | .hbm, ⟨54, _⟩ => ⟨S1000x256, .i1⟩
  | .hbm, ⟨55, _⟩ => ⟨S1000x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call0_v0 : Ref sig .tc := ⟨.hbm, 51, rfl⟩
abbrev main_v36 : Ref sig .tc := ⟨.hbm, 52, rfl⟩
abbrev main_v37 : Ref sig .tc := ⟨.hbm, 53, rfl⟩
abbrev main_call1_v0 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  bcast_S_S1000x256 : S_.BroadcastsInDim S1000x256 (![] : Fin 0 → Fin S1000x256.rank)
  bcast_S131072_S131072x1_0 : S131072.BroadcastsInDim S131072x1 (![0] : Fin 1 → Fin S131072x1.rank)
  bcast_S_S131072 : S_.BroadcastsInDim S131072 (![] : Fin 0 → Fin S131072.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  reducesTo_S1000x256_S1000_d1 : S1000x256.ReducesTo [1] S1000
  h_S_ : 0 < S_.numel
  bcast_S_S1000x1 : S_.BroadcastsInDim S1000x1 (![] : Fin 0 → Fin S1000x1.rank)
  scatter_S1000x256_S131072x1_S131072x256_1_0_0_1_wf : ScatterDims.WF S1000x256 S131072x1 S131072x256 [1] [0] [0] 1
  scatter_S1000_S131072x1_S131072_n_0_0_1_wf : ScatterDims.WF S1000 S131072x1 S131072 [] [0] [0] 1

variable [Facts₀]

def scatter_S1000x256_S131072x1_S131072x256_1_0_0_1 : ScatterDims S1000x256 S131072x1 S131072x256 where
  updateWindowDims := [1]
  insertedWindowDims := [0]
  scatterDimsToOperandDims := [0]
  indexVectorDim := 1
  wf := scatter_S1000x256_S131072x1_S131072x256_1_0_0_1_wf
def scatter_S1000_S131072x1_S131072_n_0_0_1 : ScatterDims S1000 S131072x1 S131072 where
  updateWindowDims := []
  insertedWindowDims := [0]
  scatterDimsToOperandDims := [0]
  indexVectorDim := 1
  wf := scatter_S1000_S131072x1_S131072_n_0_0_1_wf

class Facts : Prop extends Facts₀ where

variable [Facts]
-- ==== Proof.TripRead.lean ====
import proofs.«409254_j45569603010859_3_alg».proof.Proof.Gen.KernelIdeal.Frame
import Idealize.ShloMosaic.Lib.Pipeline.Value

/-!
# What the four trips of the body's loop leave in the two accumulators

One trip loads rows `2048 k … 2048 k + 2047` of the staged block of rows and of labels, and stores into each
accumulator, whole, a value computed from those rows and from what the accumulator held. So after `n` trips an
accumulator holds the `n`-fold iterate of that update from what it held at the loop's entry.
-/

set_option maxRecDepth 16384

noncomputable section

namespace Cert.KernelIdeal.SegValue

open Idealize.ShloMosaic Idealize.ShloMosaic.TcCoe Idealize.ShloMosaic.Tactic
open Idealize.SL Idealize.SL.Sem
open Cert.KernelIdeal Cert.KernelIdeal.Gen

variable {F : FTy → Type} [FloatOps F]

section Trips

variable (𝒱 : Variants) (c : Dev nD) (bd : Option 𝒱.V) (i : grid0.Coords) (arg2 : Memref sig .tc .vmem S8192x256 .f32) (harg2 : arg2.IsWhole) (arg3 : Memref sig .tc .vmem S8192 .i32) (harg3 : arg3.IsWhole) (arg4 : Memref sig .tc .vmem S1x1000x256 .f32) (harg4 : arg4.IsWhole) (arg5 : Memref sig .tc .vmem S1x1000x1 .f32) (harg5 : arg5.IsWhole) (arg6 : Memref sig .tc .vmem S1000x256 .f32) (harg6 : arg6.IsWhole) (arg7 : Memref sig .tc .vmem S1000x1 .f32) (harg7 : arg7.IsWhole) (v3 : IVec S1000x1 32)
  (X2 : BufTy.Contents (Elt F) arg2.view.ty) (X3 : BufTy.Contents (Elt F) arg3.view.ty)

/-- The rows of chunk `k` of the staged block. -/
def rowsChunk (k : Fin k0_t1_loop.trips) : Vec F S2048x256 .f32 :=
  View.readAt (Elt F) arg2.view (Rect.unit (s := S8192x256) (k0_off1 k) S2048x256.size (k0_off1_inb k)).toLoadRect X2

/-- The labels of chunk `k` of the staged block. -/
def labsChunk (k : Fin k0_t1_loop.trips) : Vec F S2048 .i32 :=
  View.readAt (Elt F) arg3.view (Rect.unit (s := S8192) (k0_off2 k) S2048.size (k0_off2_inb k)).toLoadRect X3

/-- The whole-accumulator rectangles. -/
abbrev R6 : Rect S1000x256 := Rect.unit (s := S1000x256) ![0, 0] S1000x256.size Facts₀.inb_S1000x256_S1000x256_0_0
abbrev R7 : Rect S1000x1 := Rect.unit (s := S1000x1) ![0, 0] S1000x1.size Facts₀.inb_S1000x1_S1000x1_0_0

/-- ONE TRIP's stores, read off the trip's run: one whole store per accumulator, of the chunk's update of what the
    accumulator holds when the trip starts. -/
theorem trip_pieces (k : Fin k0_t1_loop.trips) (f6 : BufTy.Contents (Elt F) arg6.view.ty) (f7 : BufTy.Contents (Elt F) arg7.view.ty) :
    tripL_k0_t1 (F := F) 𝒱 c bd i arg2 harg2 arg3 harg3 arg4 harg4 arg5 harg5 arg6 harg6 arg7 harg7 v3 X2 X3 k f6 f7
      = ([⟨R6, k0_pay7 v3 (rowsChunk arg2 X2 k) (labsChunk arg3 X3 k) (View.readAt (Elt F) arg6.view R6.toLoadRect f6)⟩],
         [⟨R7, k0_pay3 (k0_pay6 v3 (labsChunk arg3 X3 k)) (k0_pay8 v3 (labsChunk arg3 X3 k)) (k0_pay9 v3 (labsChunk arg3 X3 k))
                (View.readAt (Elt F) arg7.view R7.toLoadRect f7)⟩]) := by
  unfold tripL_k0_t1 trip_k0_t1
  rfl

/-- The two zero offsets, however spelt, are the zero offset. -/
theorem hz2 : (![0, 0] : Fin 2 → Nat) = fun _ => 0 := by
  funext a; fin_cases a <;> rfl

/-- A store through the whole shape, LAST, is what the buffer then reads, whatever was stored before. -/
theorem read_writes_cons_whole {sg : RefSig} {κ : Kind} {sp : Space} {S : Shape} {e : EltTy}
    (v : View sg κ sp S e) (G : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) G ((⟨Rect.unit off S.size inb, w⟩ : View.Piece (Elt F) S e) :: L)) = w := by
  rw [View.read_writes_eq_canon v G _ (fun y => ⟨_, List.mem_cons_self .., View.mem_set_unit_zero h inb y⟩),
    View.canon_cons_unit_zero h inb]

/-- Chunk `k`'s update of the sums accumulator. -/
def sumsStep (k : Fin k0_t1_loop.trips) (a : Vec F S1000x256 .f32) : Vec F S1000x256 .f32 :=
  k0_pay7 v3 (rowsChunk arg2 X2 k) (labsChunk arg3 X3 k) a

/-- Chunk `k`'s update of the counts accumulator. -/
def countsStep (k : Fin k0_t1_loop.trips) (a : Vec F S1000x1 .f32) : Vec F S1000x1 .f32 :=
  k0_pay3 (k0_pay6 v3 (labsChunk arg3 X3 k)) (k0_pay8 v3 (labsChunk arg3 X3 k)) (k0_pay9 v3 (labsChunk arg3 X3 k)) a

/-- The sums accumulator after the first `n` trips, from `a`. -/
def sumsAfter (a : Vec F S1000x256 .f32) : ℕ → Vec F S1000x256 .f32
  | 0 => a
  | n + 1 => if h : n < k0_t1_loop.trips then sumsStep arg2 arg3 v3 X2 X3 ⟨n, h⟩ (sumsAfter a n) else sumsAfter a n

/-- The counts accumulator after the first `n` trips, from `a`. -/
def countsAfter (a : Vec F S1000x1 .f32) : ℕ → Vec F S1000x1 .f32
  | 0 => a
  | n + 1 => if h : n < k0_t1_loop.trips then countsStep arg3 v3 X3 ⟨n, h⟩ (countsAfter a n) else countsAfter a n

/-- A load through the whole accumulator reads what it holds. -/
theorem readAt_R6 (f6 : BufTy.Contents (Elt F) arg6.view.ty) :
    View.readAt (Elt F) arg6.view R6.toLoadRect f6 = arg6.view.read (Elt F) f6 := by
  show View.ld (arg6.view.read (Elt F) f6) R6 = _
  exact View.ld_unit_zero hz2 _ _
theorem readAt_R7 (f7 : BufTy.Contents (Elt F) arg7.view.ty) :
    View.readAt (Elt F) arg7.view R7.toLoadRect f7 = arg7.view.read (Elt F) f7 := by
  show View.ld (arg7.view.read (Elt F) f7) R7 = _
  exact View.ld_unit_zero hz2 _ _

variable (G6 : BufTy.Contents (Elt F) arg6.view.ty) (G7 : BufTy.Contents (Elt F) arg7.view.ty)

/-- The pieces of the first `k + 1` trips: trip `k`'s two whole stores in front of the earlier ones. -/
theorem pb_succ_eq (k : Fin k0_t1_loop.trips) :
    pb_k0_t1 (F := F) 𝒱 c bd i arg2 harg2 arg3 harg3 arg4 harg4 arg5 harg5 arg6 harg6 arg7 harg7 v3 X2 X3 G6 G7 (k.val + 1)
      = ((⟨R6, sumsStep arg2 arg3 v3 X2 X3 k (arg6.view.read (Elt F) (arg6.view.writes (Elt F) G6
              (pb_k0_t1 (F := F) 𝒱 c bd i arg2 harg2 arg3 harg3 arg4 harg4 arg5 harg5 arg6 harg6 arg7 harg7 v3 X2 X3 G6 G7 k.val).1))⟩ : View.Piece (Elt F) S1000x256 .f32)
            :: (pb_k0_t1 (F := F) 𝒱 c bd i arg2 harg2 arg3 harg3 arg4 harg4 arg5 harg5 arg6 harg6 arg7 harg7 v3 X2 X3 G6 G7 k.val).1,
         (⟨R7, countsStep arg3 v3 X3 k (arg7.view.read (Elt F) (arg7.view.writes (Elt F) G7
              (pb_k0_t1 (F := F) 𝒱 c bd i arg2 harg2 arg3 harg3 arg4 harg4 arg5 harg5 arg6 harg6 arg7 harg7 v3 X2 X3 G6 G7 k.val).2))⟩ : View.Piece (Elt F) S1000x1 .f32)
            :: (pb_k0_t1 (F := F) 𝒱 c bd i arg2 harg2 arg3 harg3 arg4 harg4 arg5 harg5 arg6 harg6 arg7 harg7 v3 X2 X3 G6 G7 k.val).2) := by
  rw [pb_k0_t1_succ, trip_pieces, readAt_R6, readAt_R7]
  rfl

/-- After `n` trips the sums accumulator holds the `n`-fold update of what it held at the loop's entry, -/
theorem read_pb_sums : ∀ n : ℕ, n ≤ k0_t1_loop.trips →
    arg6.view.read (Elt F) (arg6.view.writes (Elt F) G6 (pb_k0_t1 (F := F) 𝒱 c bd i arg2 harg2 arg3 harg3 arg4 harg4 arg5 harg5 arg6 harg6 arg7 harg7 v3 X2 X3 G6 G7 n).1)
      = sumsAfter arg2 arg3 v3 X2 X3 (arg6.view.read (Elt F) G6) n
  | 0, _ => rfl
  | n + 1, hn => by
    have ih := read_pb_sums n (Nat.le_of_succ_le hn)
    have hk : n < k0_t1_loop.trips := hn
    rw [show n + 1 = (⟨n, hk⟩ : Fin k0_t1_loop.trips).val + 1 from rfl, pb_succ_eq]
    rw [read_writes_cons_whole _ _ hz2]
    show _ = sumsAfter arg2 arg3 v3 X2 X3 (arg6.view.read (Elt F) G6) (n + 1)
    rw [sumsAfter, dif_pos hk, ← ih]

/-- and the counts accumulator likewise. -/
theorem read_pb_counts : ∀ n : ℕ, n ≤ k0_t1_loop.trips →
    arg7.view.read (Elt F) (arg7.view.writes (Elt F) G7 (pb_k0_t1 (F := F) 𝒱 c bd i arg2 harg2 arg3 harg3 arg4 harg4 arg5 harg5 arg6 harg6 arg7 harg7 v3 X2 X3 G6 G7 n).2)
      = countsAfter arg3 v3 X3 (arg7.view.read (Elt F) G7) n
  | 0, _ => rfl
  | n + 1, hn => by
    have ih := read_pb_counts n (Nat.le_of_succ_le hn)
    have hk : n < k0_t1_loop.trips := hn
    rw [show n + 1 = (⟨n, hk⟩ : Fin k0_t1_loop.trips).val + 1 from rfl, pb_succ_eq]
    rw [read_writes_cons_whole _ _ hz2]
    show _ = countsAfter arg3 v3 X3 (arg7.view.read (Elt F) G7) (n + 1)
    rw [countsAfter, dif_pos hk, ← ih]

end Trips

end Cert.KernelIdeal.SegValue

end
-- ==== Proof.CaseRead.lean ====
import proofs.«409254_j45569603010859_3_alg».proof.Proof.TripRead

/-!
# What each of the body's three cases leaves behind

At a grid point the body first (at the first point of a half only) zeroes the two accumulators, then runs the four
trips, then (at the last point of a half only) copies the accumulators out. So a point leaves in each accumulator the
four-fold update — of zero at a first point, of what the point before left otherwise — and a last point writes out
exactly that.
-/

set_option maxRecDepth 16384

noncomputable section

namespace Cert.KernelIdeal.SegValue

open Idealize.ShloMosaic Idealize.ShloMosaic.TcCoe Idealize.ShloMosaic.Tactic
open Idealize.SL Idealize.SL.Sem
open Cert.KernelIdeal Cert.KernelIdeal.Gen

variable {F : FTy → Type} [FloatOps F]

/-- The column of class numbers `0 … 999` the body compares the labels with. -/
abbrev classCol : IVec S1000x1 32 := iota .tc S1000x1 32 [0] Facts₀.iota_S1000x1_d0_w32

theorem hz3 : (![0, 0, 0] : Fin 3 → Nat) = fun _ => 0 := by
  funext a; fin_cases a <;> rfl

section Cases

variable (c : Dev nD) (i : grid0.Coords) (arg2 : Memref sig .tc .vmem S8192x256 .f32) (harg2 : arg2.IsWhole) (arg3 : Memref sig .tc .vmem S8192 .i32) (harg3 : arg3.IsWhole) (arg4 : Memref sig .tc .vmem S1x1000x256 .f32) (harg4 : arg4.IsWhole) (arg5 : Memref sig .tc .vmem S1x1000x1 .f32) (harg5 : arg5.IsWhole) (arg6 : Memref sig .tc .vmem S1000x256 .f32) (harg6 : arg6.IsWhole) (arg7 : Memref sig .tc .vmem S1000x1 .f32) (harg7 : arg7.IsWhole)
  (x0 : Vec F S8192x256 .f32) (x1 : Vec F S8192 .i32)

/-- The sums accumulator after a whole point that found `a` in it (or zeroed it first, `a` then zero). -/
abbrev sumsPoint (a : Vec F S1000x256 .f32) : Vec F S1000x256 .f32 :=
  sumsAfter arg2 arg3 classCol (harg2.unread x0) (harg3.unread x1) a k0_t1_loop.trips
/-- The counts accumulator likewise. -/
abbrev countsPoint (a : Vec F S1000x1 .f32) : Vec F S1000x1 .f32 :=
  countsAfter arg3 classCol (harg3.unread x1) a k0_t1_loop.trips

/-! ## A first point of a half: zero, then the four trips -/

theorem sout_A_0 (hc0 : cond0_0 i) (hc1 : ¬cond0_1 i) :
    sout0_A_0 c i arg2 harg2 arg3 harg3 arg4 harg4 arg5 harg5 arg6 harg6 arg7 harg7 hc0 hc1 x0 x1 = sumsPoint arg2 harg2 arg3 harg3 x0 x1 (k0_pay1 (F := F)) := by
  unfold sout0_A_0
  rw [View.read_writes_of_cover (v := VS0_0) (f := VS0_0.junk) arg6.view arg6.view.junk _ (scover0_A_0 c i arg2 harg2 arg3 harg3 arg4 harg4 arg5 harg5 arg6 harg6 arg7 harg7 hc0 hc1 x0 x1)]
  have hL : (kernelRun0_A (F := F) c i arg2 harg2 arg3 harg3 arg4 harg4 arg5 harg5 arg6 harg6 arg7 harg7 hc0 hc1 x0 x1).2.2.1
      = (pb_k0_t1 (F := F) Variants.none c none i arg2 harg2 arg3 harg3 arg4 harg4 arg5 harg5 arg6 harg6 arg7 harg7 classCol (harg2.unread x0) (harg3.unread x1) (arg6.view.writes (Elt F) arg6.view.junk [⟨R6, k0_pay1⟩]) (arg7.view.writes (Elt F) arg7.view.junk [⟨R7, k0_pay2⟩]) k0_t1_loop.trips).1 ++ [⟨R6, k0_pay1⟩] := by
    unfold kernelRun0_A; rfl
  rw [hL, View.writes_append, read_pb_sums _ _ _ _ arg2 harg2 arg3 harg3 arg4 harg4 arg5 harg5 arg6 harg6 arg7 harg7 _ _ _ _ _ _ (le_refl _), read_writes_cons_whole _ _ hz2]

theorem sout_A_1 (hc0 : cond0_0 i) (hc1 : ¬cond0_1 i) :
    sout0_A_1 c i arg2 harg2 arg3 harg3 arg4 harg4 arg5 harg5 arg6 harg6 arg7 harg7 hc0 hc1 x0 x1 = countsPoint arg3 harg3 x1 (k0_pay2 (F := F)) := by
  unfold sout0_A_1
  rw [View.read_writes_of_cover (v := VS0_1) (f := VS0_1.junk) arg7.view arg7.view.junk _ (scover0_A_1 c i arg2 harg2 arg3 harg3 arg4 harg4 arg5 harg5 arg6 harg6 arg7 harg7 hc0 hc1 x0 x1)]
  have hL : (kernelRun0_A (F := F) c i arg2 harg2 arg3 harg3 arg4 harg4 arg5 harg5 arg6 harg6 arg7 harg7 hc0 hc1 x0 x1).2.2.2.1
      = (pb_k0_t1 (F := F) Variants.none c none i arg2 harg2 arg3 harg3 arg4 harg4 arg5 harg5 arg6 harg6 arg7 harg7 classCol (harg2.unread x0) (harg3.unread x1) (arg6.view.writes (Elt F) arg6.view.junk [⟨R6, k0_pay1⟩]) (arg7.view.writes (Elt F) arg7.view.junk [⟨R7, k0_pay2⟩]) k0_t1_loop.trips).2 ++ [⟨R7, k0_pay2⟩] := by
    unfold kernelRun0_A; rfl
  rw [hL, View.writes_append, read_pb_counts _ _ _ _ arg2 harg2 arg3 harg3 arg4 harg4 arg5 harg5 arg6 harg6 arg7 harg7 _ _ _ _ _ _ (le_refl _), read_writes_cons_whole _ _ hz2]

/-! ## A middle point: the four trips over what the point before left -/

variable (xs0 : Vec F S1000x256 .f32) (xs1 : Vec F S1000x1 .f32)

theorem sout_B_0 (hc0 : ¬cond0_0 i) (hc1 : ¬cond0_1 i) :
    sout0_B_0 c i arg2 harg2 arg3 harg3 arg4 harg4 arg5 harg5 arg6 harg6 arg7 harg7 hc0 hc1 x0 x1 xs0 xs1 = sumsPoint arg2 harg2 arg3 harg3 x0 x1 xs0 := by
  unfold sout0_B_0
  rw [View.read_writes_of_cover (v := VS0_0) (f := VS0_0.junk) arg6.view (harg6.unread xs0) _ (scover0_B_0 c i arg2 harg2 arg3 harg3 arg4 harg4 arg5 harg5 arg6 harg6 arg7 harg7 hc0 hc1 x0 x1 xs0 xs1)]
  have hL : (kernelRun0_B (F := F) c i arg2 harg2 arg3 harg3 arg4 harg4 arg5 harg5 arg6 harg6 arg7 harg7 hc0 hc1 x0 x1 xs0 xs1).2.2.1
      = (pb_k0_t1 (F := F) Variants.none c none i arg2 harg2 arg3 harg3 arg4 harg4 arg5 harg5 arg6 harg6 arg7 harg7 classCol (harg2.unread x0) (harg3.unread x1) (harg6.unread xs0) (harg7.unread xs1) k0_t1_loop.trips).1 := by
    unfold kernelRun0_B; rfl
  rw [hL, read_pb_sums _ _ _ _ arg2 harg2 arg3 harg3 arg4 harg4 arg5 harg5 arg6 harg6 arg7 harg7 _ _ _ _ _ _ (le_refl _), harg6.read_unread]

theorem sout_B_1 (hc0 : ¬cond0_0 i) (hc1 : ¬cond0_1 i) :
    sout0_B_1 c i arg2 harg2 arg3 harg3 arg4 harg4 arg5 harg5 arg6 harg6 arg7 harg7 hc0 hc1 x0 x1 xs0 xs1 = countsPoint arg3 harg3 x1 xs1 := by
  unfold sout0_B_1
  rw [View.read_writes_of_cover (v := VS0_1) (f := VS0_1.junk) arg7.view (harg7.unread xs1) _ (scover0_B_1 c i arg2 harg2 arg3 harg3 arg4 harg4 arg5 harg5 arg6 harg6 arg7 harg7 hc0 hc1 x0 x1 xs0 xs1)]
  have hL : (kernelRun0_B (F := F) c i arg2 harg2 arg3 harg3 arg4 harg4 arg5 harg5 arg6 harg6 arg7 harg7 hc0 hc1 x0 x1 xs0 xs1).2.2.2.1
      = (pb_k0_t1 (F := F) Variants.none c none i arg2 harg2 arg3 harg3 arg4 harg4 arg5 harg5 arg6 harg6 arg7 harg7 classCol (harg2.unread x0) (harg3.unread x1) (harg6.unread xs0) (harg7.unread xs1) k0_t1_loop.trips).2 := by
    unfold kernelRun0_B; rfl
  rw [hL, read_pb_counts _ _ _ _ arg2 harg2 arg3 harg3 arg4 harg4 arg5 harg5 arg6 harg6 arg7 harg7 _ _ _ _ _ _ (le_refl _), harg7.read_unread]

/-! ## A last point of a half: the same, and the accumulators copied out -/

theorem sout_C_0 (hc0 : ¬cond0_0 i) (hc1 : cond0_1 i) :
    sout0_C_0 c i arg2 harg2 arg3 harg3 arg4 harg4 arg5 harg5 arg6 harg6 arg7 harg7 hc0 hc1 x0 x1 xs0 xs1 = sumsPoint arg2 harg2 arg3 harg3 x0 x1 xs0 := by
  unfold sout0_C_0
  rw [View.read_writes_of_cover (v := VS0_0) (f := VS0_0.junk) arg6.view (harg6.unread xs0) _ (scover0_C_0 c i arg2 harg2 arg3 harg3 arg4 harg4 arg5 harg5 arg6 harg6 arg7 harg7 hc0 hc1 x0 x1 xs0 xs1)]
  have hL : (kernelRun0_C (F := F) c i arg2 harg2 arg3 harg3 arg4 harg4 arg5 harg5 arg6 harg6 arg7 harg7 hc0 hc1 x0 x1 xs0 xs1).2.2.1
      = (pb_k0_t1 (F := F) Variants.none c none i arg2 harg2 arg3 harg3 arg4 harg4 arg5 harg5 arg6 harg6 arg7 harg7 classCol (harg2.unread x0) (harg3.unread x1) (harg6.unread xs0) (harg7.unread xs1) k0_t1_loop.trips).1 := by
    unfold kernelRun0_C; rfl
  rw [hL, read_pb_sums _ _ _ _ arg2 harg2 arg3 harg3 arg4 harg4 arg5 harg5 arg6 harg6 arg7 harg7 _ _ _ _ _ _ (le_refl _), harg6.read_unread]

theorem sout_C_1 (hc0 : ¬cond0_0 i) (hc1 : cond0_1 i) :
    sout0_C_1 c i arg2 harg2 arg3 harg3 arg4 harg4 arg5 harg5 arg6 harg6 arg7 harg7 hc0 hc1 x0 x1 xs0 xs1 = countsPoint arg3 harg3 x1 xs1 := by
  unfold sout0_C_1
  rw [View.read_writes_of_cover (v := VS0_1) (f := VS0_1.junk) arg7.view (harg7.unread xs1) _ (scover0_C_1 c i arg2 harg2 arg3 harg3 arg4 harg4 arg5 harg5 arg6 harg6 arg7 harg7 hc0 hc1 x0 x1 xs0 xs1)]
  have hL : (kernelRun0_C (F := F) c i arg2 harg2 arg3 harg3 arg4 harg4 arg5 harg5 arg6 harg6 arg7 harg7 hc0 hc1 x0 x1 xs0 xs1).2.2.2.1
      = (pb_k0_t1 (F := F) Variants.none c none i arg2 harg2 arg3 harg3 arg4 harg4 arg5 harg5 arg6 harg6 arg7 harg7 classCol (harg2.unread x0) (harg3.unread x1) (harg6.unread xs0) (harg7.unread xs1) k0_t1_loop.trips).2 := by
    unfold kernelRun0_C; rfl
  rw [hL, read_pb_counts _ _ _ _ arg2 harg2 arg3 harg3 arg4 harg4 arg5 harg5 arg6 harg6 arg7 harg7 _ _ _ _ _ _ (le_refl _), harg7.read_unread]

theorem out_C_2 (hc0 : ¬cond0_0 i) (hc1 : cond0_1 i) :
    out0_C_2 c i arg2 harg2 arg3 harg3 arg4 harg4 arg5 harg5 arg6 harg6 arg7 harg7 hc0 hc1 x0 x1 xs0 xs1 = k0_pay4 (sumsPoint arg2 harg2 arg3 harg3 x0 x1 xs0) := by
  unfold out0_C_2
  have hL : (kernelRun0_C (F := F) c i arg2 harg2 arg3 harg3 arg4 harg4 arg5 harg5 arg6 harg6 arg7 harg7 hc0 hc1 x0 x1 xs0 xs1).1
      = [⟨Rect.unit (s := S1x1000x256) ![0, 0, 0] S1x1000x256.size Facts₀.inb_S1x1000x256_S1x1000x256_0_0_0,
          k0_pay4 (View.readAt (Elt F) arg6.view R6.toLoadRect (arg6.view.writes (Elt F) (harg6.unread xs0)
            (pb_k0_t1 (F := F) Variants.none c none i arg2 harg2 arg3 harg3 arg4 harg4 arg5 harg5 arg6 harg6 arg7 harg7 classCol (harg2.unread x0) (harg3.unread x1) (harg6.unread xs0) (harg7.unread xs1) k0_t1_loop.trips).1))⟩] := by
    unfold kernelRun0_C; rfl
  rw [hL, read_writes_cons_whole _ _ hz3, readAt_R6, read_pb_sums _ _ _ _ arg2 harg2 arg3 harg3 arg4 harg4 arg5 harg5 arg6 harg6 arg7 harg7 _ _ _ _ _ _ (le_refl _), harg6.read_unread]

theorem out_C_3 (hc0 : ¬cond0_0 i) (hc1 : cond0_1 i) :
    out0_C_3 c i arg2 harg2 arg3 harg3 arg4 harg4 arg5 harg5 arg6 harg6 arg7 harg7 hc0 hc1 x0 x1 xs0 xs1 = k0_pay5 (countsPoint arg3 harg3 x1 xs1) := by
  unfold out0_C_3
  have hL : (kernelRun0_C (F := F) c i arg2 harg2 arg3 harg3 arg4 harg4 arg5 harg5 arg6 harg6 arg7 harg7 hc0 hc1 x0 x1 xs0 xs1).2.1
      = [⟨Rect.unit (s := S1x1000x1) ![0, 0, 0] S1x1000x1.size Facts₀.inb_S1x1000x1_S1x1000x1_0_0_0,
          k0_pay5 (View.readAt (Elt F) arg7.view R7.toLoadRect (arg7.view.writes (Elt F) (harg7.unread xs1)
            (pb_k0_t1 (F := F) Variants.none c none i arg2 harg2 arg3 harg3 arg4 harg4 arg5 harg5 arg6 harg6 arg7 harg7 classCol (harg2.unread x0) (harg3.unread x1) (harg6.unread xs0) (harg7.unread xs1) k0_t1_loop.trips).2))⟩] := by
    unfold kernelRun0_C; rfl
  rw [hL, read_writes_cons_whole _ _ hz3, readAt_R7, read_pb_counts _ _ _ _ arg2 harg2 arg3 harg3 arg4 harg4 arg5 harg5 arg6 harg6 arg7 harg7 _ _ _ _ _ _ (le_refl _), harg7.read_unread]

end Cases

end Cert.KernelIdeal.SegValue

end
-- ==== Proof.Spec.lean ====
import Idealize.ShloMosaic.PureOps.Ideal
import Idealize.ShloMosaic.Lib.ValueIdx

/-!
# Per-class sums and counts of labelled rows, as sums over ranges of row numbers

`z` is an array of 131072 rows of 256 extended reals and `lab` gives every row a 32-bit label word, read as a signed
integer. For a class number `c` the rows of the class are those whose label is `c`. Both programs compute, for every
class `c < 1000` and column `d < 256`, the sum of `z n d` over the rows `n` of class `c`, and the number of such rows.
One program visits the rows in consecutive stretches (2048 rows, then 8192, then 65536), the other all at once, so the
sums are stated over a half-open range `[a, b)` of row numbers: a stretch after a stretch is the longer stretch
(`segSum_append`), and nothing else of the arithmetic of the extended reals is used (addition there is commutative
and associative; no cancellation, no distributivity).
-/

noncomputable section

open scoped BigOperators

namespace Cert.SegMean

open Idealize.ShloMosaic Idealize.ShloMosaic.ValueIdx

/-- The rows: 131072 of 256 columns. -/
abbrev Sz : Shape := ⟨2, ![131072, 256]⟩
/-- One label per row. -/
abbrev Slab : Shape := ⟨1, ![131072]⟩
/-- Per class and column. -/
abbrev Ssum : Shape := ⟨2, ![1000, 256]⟩
/-- Per class. -/
abbrev Scnt : Shape := ⟨1, ![1000]⟩

/-- Row `n`'s label as a signed integer; outside the array, a value no class number equals. -/
def labAt (lab : IVec Slab 32) (n : ℕ) : ℤ := if h : n < 131072 then (lab (ix1 ⟨n, h⟩)).toInt else -1

/-- Entry `(n, d)` of the rows; outside the array, zero. -/
def zAt (z : Sz.Idx → EReal) (n d : ℕ) : EReal := if h : n < 131072 ∧ d < 256 then z (ix2 ⟨n, h.1⟩ ⟨d, h.2⟩) else 0

/-- The sum of column `d` over the rows of class `c` among rows `a ≤ n < b`. -/
def segSum (z : Sz.Idx → EReal) (lab : IVec Slab 32) (a b c d : ℕ) : EReal :=
  ∑ n ∈ Finset.Ico a b, if labAt lab n = (c : ℤ) then zAt z n d else 0

/-- The number of rows of class `c` among rows `a ≤ n < b`, as an extended real. -/
def segCnt (lab : IVec Slab 32) (a b c : ℕ) : EReal :=
  ∑ n ∈ Finset.Ico a b, if labAt lab n = (c : ℤ) then (1 : EReal) else 0

/-- A stretch of rows followed by the next stretch is the whole stretch. -/
theorem segSum_append (z : Sz.Idx → EReal) (lab : IVec Slab 32) {a b e : ℕ} (hab : a ≤ b) (hbe : b ≤ e) (c d : ℕ) :
    segSum z lab a b c d + segSum z lab b e c d = segSum z lab a e c d :=
  Finset.sum_Ico_consecutive _ hab hbe

theorem segCnt_append (lab : IVec Slab 32) {a b e : ℕ} (hab : a ≤ b) (hbe : b ≤ e) (c : ℕ) :
    segCnt lab a b c + segCnt lab b e c = segCnt lab a e c :=
  Finset.sum_Ico_consecutive _ hab hbe

/-- An empty stretch contributes nothing. -/
theorem segSum_self (z : Sz.Idx → EReal) (lab : IVec Slab 32) (a c d : ℕ) : segSum z lab a a c d = 0 := by
  unfold segSum; rw [Finset.Ico_self]; rfl

theorem segCnt_self (lab : IVec Slab 32) (a c : ℕ) : segCnt lab a a c = 0 := by
  unfold segCnt; rw [Finset.Ico_self]; rfl

/-- A stretch of `len` rows from `a` as a sum over `Fin len`: the form a contraction over a block of rows has. -/
theorem segSum_eq_sum_fin (z : Sz.Idx → EReal) (lab : IVec Slab 32) (a len c d : ℕ) :
    segSum z lab a (a + len) c d = ∑ j : Fin len, if labAt lab (a + j.val) = (c : ℤ) then zAt z (a + j.val) d else 0 := by
  unfold segSum
  rw [Finset.sum_Ico_eq_sum_range, Nat.add_sub_cancel_left, Finset.sum_range]

theorem segCnt_eq_sum_fin (lab : IVec Slab 32) (a len c : ℕ) :
    segCnt lab a (a + len) c = ∑ j : Fin len, if labAt lab (a + j.val) = (c : ℤ) then (1 : EReal) else 0 := by
  unfold segCnt
  rw [Finset.sum_Ico_eq_sum_range, Nat.add_sub_cancel_left, Finset.sum_range]

/-- What both programs hold before the shared closing operations: per class and column, the class's sum over all rows. -/
def classSum (z : Sz.Idx → EReal) (lab : IVec Slab 32) : Ssum.Idx → EReal :=
  fun i => segSum z lab 0 131072 (i 0).val (i 1).val

/-- And per class, the class's number of rows. -/
def classCount (lab : IVec Slab 32) : Scnt.Idx → EReal :=
  fun i => segCnt lab 0 131072 (i 0).val

end Cert.SegMean

end
-- ==== Proof.Payload.lean ====
import proofs.«409254_j45569603010859_3_alg».proof.Proof.Gen.KernelIdeal.Skeleton
import proofs.«409254_j45569603010859_3_alg».proof.Proof.Spec
import Idealize.ShloMosaic.PureOps.Ideal.Laws
import Idealize.ShloMosaic.Lib.ValueIdx
import Idealize.ShloMosaic.Lib.ValueLayout
import Idealize.ShloMosaic.Lib.Pipeline.Value

/-!
# What one chunk of 2048 rows adds to the two accumulators, entry by entry

The body compares a column of the class numbers `0 … 999` with a row of 2048 labels: entry `(c, j)` of the comparison is
`1` when label `j` is `c` and `0` otherwise. Its product with the chunk's 2048 × 256 rows adds, at `(c, d)`, the sum of
column `d` over the chunk's rows of class `c`; the sums of its eight groups of 256 columns add, at `c`, the number of
the chunk's rows of class `c`. At the extended reals a change of float format is the identity, `1 · x = x` and
`0 · x = 0`, so no rounding and no finiteness enter.

Each statement is read off one entry at a time. The comparison at `(c, j)` is the conversion of a one-bit word, so it is
`1` or `0` according to whether the class word equals the label word, and for a class number below `2 ^ 31` that is
whether the label, read as a signed integer, is the class number. The product at `(c, d)` is a sum over the one
contracted axis, re-indexed by the 2048 row numbers. A group of 256 columns summed along a row is a sum over `Fin 256`
of entries at columns `o + l`; eight such sums at `o = 0, 256, …, 1792`, added in order from zero, are the sum over all
2048 columns, because a stretch of a sum over the naturals followed by the next stretch is the longer stretch.
-/

noncomputable section

open scoped BigOperators

namespace Cert.KernelIdeal.SegValue

open Idealize.ShloMosaic Idealize.ShloMosaic.ValueIdx Cert.KernelIdeal Cert.KernelIdeal.Gen Cert.SegMean

/-- The column of class numbers the body compares the labels with. -/
abbrev classIds : IVec S1000x1 32 := iota .tc S1000x1 32 [0] Facts₀.iota_S1000x1_d0_w32

/-! ## Layout operations on a column, read at coordinates -/

section Layout
variable {α : Type}

/-- A column `[a, 1]` broadcast to `[a, b]` reads, at `(p, q)`, the column's entry `p`. -/
private theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector's entry `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The class word against a label word -/

/-- A class number below 1000, written as a 32-bit word, equals a label word exactly when the label, read as a
    signed integer, is that number: the word of a number below `2 ^ 31` reads back as the number, and reading a word as
    a signed integer loses nothing. -/
private theorem classWord_eq_iff (c : Fin 1000) (w : BitVec 32) :
    BitVec.ofNat 32 c.val = w ↔ w.toInt = (c.val : ℤ) := by
  have hc : (BitVec.ofNat 32 c.val).toInt = (c.val : ℤ) := by
    rw [BitVec.toInt_eq_toNat_cond, BitVec.toNat_ofNat]
    have := c.isLt
    split <;> omega
  constructor
  · intro h; rw [← h]; exact hc
  · intro h; exact BitVec.toInt_inj.mp (hc.trans h.symm)

/-- The comparison of two words for equality, widened to 32 bits and converted to a float, is one when the words are
    equal and zero when they are not. -/
private theorem sitofp_cmpi_eq (a b : BitVec 32) :
    FloatOps.sitofp (F := Ideal) .f32 ((IntOp.cmpi .eq a b).setWidth 32) = if a = b then (1 : EReal) else 0 := by
  show ((((BitVec.ofBool (a == b)).setWidth 32).toInt : ℝ) : EReal) = _
  by_cases h : a = b
  · have hb : (a == b) = true := by simpa using h
    have h1 : ((BitVec.ofBool true).setWidth 32).toInt = 1 := by decide
    rw [hb, if_pos h, h1]; simp
  · have hb : (a == b) = false := by simpa using h
    have h0 : ((BitVec.ofBool false).setWidth 32).toInt = 0 := by decide
    rw [hb, if_neg h, h0]; simp

/-- Entry `(c, j)` of the comparison of the class column with the label row: one where label `j` is `c`, zero
    elsewhere. -/
private theorem onehot_apply (x15 : Vec Ideal S2048 .i32) (c : Fin 1000) (j : Fin 2048) :
    k0_pay6 (F := Ideal) classIds x15 (ix2 c j) = if (x15 (ix1 j)).toInt = (c.val : ℤ) then (1 : EReal) else 0 := by
  have e17 : broadcastTo S1000x2048 classIds broadcasts_S1000x1_S1000x2048 (ix2 c j) = BitVec.ofNat 32 c.val :=
    (broadcastTo_a1_ab_apply classIds broadcasts_S1000x1_S1000x2048 c j).trans
      (iota_single_apply .tc S1000x1 32 0 _ (ix2 c (0 : Fin 1)))
  have e18 : broadcastTo S1000x2048 (shapeCast S1x2048 x15 shapeCasts_S2048_S1x2048) broadcasts_S1x2048_S1000x2048 (ix2 c j)
      = x15 (ix1 j) :=
    (broadcastTo_1b_ab_apply _ broadcasts_S1x2048_S1000x2048 c j).trans
      (shapeCast_a_1a_apply x15 shapeCasts_S2048_S1x2048 (0 : Fin 1) j)
  unfold k0_pay6
  show FloatOps.sitofp (F := Ideal) .f32
      ((IntOp.cmpi .eq (broadcastTo S1000x2048 classIds broadcasts_S1000x1_S1000x2048 (ix2 c j))
        (broadcastTo S1000x2048 (shapeCast S1x2048 x15 shapeCasts_S2048_S1x2048) broadcasts_S1x2048_S1000x2048 (ix2 c j))).setWidth 32) = _
  rw [e17, e18]
  exact (sitofp_cmpi_eq _ _).trans (if_congr (classWord_eq_iff c _) rfl rfl)

/-! ## The product of the comparison with the chunk's rows -/

/-- The operand indices of the product at output `j` and contraction position `k`, axis by axis. -/
private theorem lhs_dot_0 (j : S1000x256.Idx) (k : dot_S1000x2048_S2048x256_S1000x256_1_0_0_1_n_n.contr.Idx) :
    (dot_S1000x2048_S2048x256_S1000x256_1_0_0_1_n_n.lhsIdx j k 0).val = (j 0).val := rfl
private theorem lhs_dot_1 (j : S1000x256.Idx) (k : dot_S1000x2048_S2048x256_S1000x256_1_0_0_1_n_n.contr.Idx) :
    (dot_S1000x2048_S2048x256_S1000x256_1_0_0_1_n_n.lhsIdx j k 1).val = (k ⟨0, by decide⟩).val :=
  dot_S1000x2048_S2048x256_S1000x256_1_0_0_1_n_n.lhsIdx_val_of_single rfl j k
private theorem rhs_dot_0 (j : S1000x256.Idx) (k : dot_S1000x2048_S2048x256_S1000x256_1_0_0_1_n_n.contr.Idx) :
    (dot_S1000x2048_S2048x256_S1000x256_1_0_0_1_n_n.rhsIdx j k 0).val = (k ⟨0, by decide⟩).val :=
  dot_S1000x2048_S2048x256_S1000x256_1_0_0_1_n_n.rhsIdx_val_of_single rfl j k
private theorem rhs_dot_1 (j : S1000x256.Idx) (k : dot_S1000x2048_S2048x256_S1000x256_1_0_0_1_n_n.contr.Idx) :
    (dot_S1000x2048_S2048x256_S1000x256_1_0_0_1_n_n.rhsIdx j k 1).val = (j 1).val := rfl

/-- The product into a zero accumulator, read at `(c, d)`: the sum over the 2048 contracted positions. -/
private theorem matmul_zero_apply (A : FVec Ideal S1000x2048 .bf16) (B : FVec Ideal S2048x256 .bf16) (c : Fin 1000) (d : Fin 256) :
    matmul dot_S1000x2048_S2048x256_S1000x256_1_0_0_1_n_n none A B (constant (F := Ideal) S1000x256 .f32 0x00000000#32) (ix2 c d)
      = ∑ j : Fin 2048, A (ix2 c j) * B (ix2 j d) := by
  show FloatOps.matmul _ none A B (constant S1000x256 .f32 0x00000000#32) (ix2 c d) = _
  rw [Ideal.matmul_constant_zero_apply,
    ← Equiv.sum_comp (contrEquiv1 dot_S1000x2048_S2048x256_S1000x256_1_0_0_1_n_n 2048 rfl rfl).symm]
  refine Finset.sum_congr rfl fun j _ => ?_
  have hk := contrEquiv1_symm_val dot_S1000x2048_S2048x256_S1000x256_1_0_0_1_n_n 2048 rfl rfl j
  have hl : dot_S1000x2048_S2048x256_S1000x256_1_0_0_1_n_n.lhsIdx (ix2 c d)
      ((contrEquiv1 dot_S1000x2048_S2048x256_S1000x256_1_0_0_1_n_n 2048 rfl rfl).symm j) = ix2 c j := by
    funext ax; apply Fin.ext
    match ax with
    | ⟨0, _⟩ => exact lhs_dot_0 _ _
    | ⟨1, _⟩ => exact (lhs_dot_1 _ _).trans hk
  have hr : dot_S1000x2048_S2048x256_S1000x256_1_0_0_1_n_n.rhsIdx (ix2 c d)
      ((contrEquiv1 dot_S1000x2048_S2048x256_S1000x256_1_0_0_1_n_n 2048 rfl rfl).symm j) = ix2 j d := by
    funext ax; apply Fin.ext
    match ax with
    | ⟨0, _⟩ => exact (rhs_dot_0 _ _).trans hk
    | ⟨1, _⟩ => exact rhs_dot_1 _ _
  rw [hl, hr]

/-- The sums accumulator after one chunk: what it held plus, at `(c, d)`, column `d` summed over the chunk's rows whose
    label is `c`. -/
theorem sums_payload_apply (x13 : Vec Ideal S2048x256 .f32) (x15 : Vec Ideal S2048 .i32) (acc : Vec Ideal S1000x256 .f32)
    (c : Fin 1000) (d : Fin 256) :
    k0_pay7 (F := Ideal) classIds x13 x15 acc (ix2 c d)
      = acc (ix2 c d) + ∑ j : Fin 2048, if (x15 (ix1 j)).toInt = (c.val : ℤ) then x13 (ix2 j d) else 0 := by
  unfold k0_pay7
  rw [shapeCast_self]
  refine (addf_apply _ _ _).trans ?_
  rw [matmul_zero_apply]
  refine congrArg (acc (ix2 c d) + ·) (Finset.sum_congr rfl fun j _ => ?_)
  rw [onehot_apply, truncf_apply]
  split
  · exact one_mul _
  · exact zero_mul _

/-! ## The column sums of the comparison, by groups of 256 columns -/

/-- The sum over the 256 columns of a `1000 × 256` array, read at row `c`. -/
private theorem rowSum_apply (src : FVec Ideal S1000x256 .f32) (hφ : FKind.Formats .f32)
    (hacc : (0x00000000#32 : BitVec FTy.f32.bits) = FKind.add.neutral .f32 hφ) (c : Fin 1000) :
    multiReduction .add [1] S1000 src 0x00000000#32 reduces_S1000x256_S1000 hφ hacc (ix1 c) = ∑ l : Fin 256, src (ix2 c l) := by
  refine (Ideal.multiReduction_add_single src 0x00000000#32 reduces_S1000x256_S1000 hφ hacc (ix1 c)).trans ?_
  refine Finset.sum_congr rfl fun l _ => congrArg src ?_
  funext ax; apply Fin.ext
  match ax with
  | ⟨0, _⟩ => rfl
  | ⟨1, _⟩ => rfl

/-- Whether label `n` of the chunk is class `c`, as one or zero; zero past the chunk's 2048 labels. -/
private def ind (x15 : Vec Ideal S2048 .i32) (c : Fin 1000) (n : ℕ) : EReal :=
  if h : n < 2048 then (if (x15 (ix1 ⟨n, h⟩)).toInt = (c.val : ℤ) then 1 else 0) else 0

/-- The columns of a `1000 × 256` array summed along each row and set down as a column: entry `c` is row `c`'s sum. -/
private theorem group_sum (X : FVec Ideal S1000x256 .bf16) (hb : FTy.bits .bf16 < FTy.bits .f32) (hφ : FKind.Formats .f32)
    (hacc : (0x00000000#32 : BitVec FTy.f32.bits) = FKind.add.neutral .f32 hφ) (c : Fin 1000) (u : Fin 1) :
    shapeCast S1000x1 (multiReduction .add [1] S1000 (extf .f32 X hb) 0x00000000#32 reduces_S1000x256_S1000 hφ hacc)
        shapeCasts_S1000_S1000x1 (ix2 c u)
      = ∑ l : Fin 256, X (ix2 c l) := by
  refine (shapeCast_a_a1_apply _ shapeCasts_S1000_S1000x1 c u).trans ?_
  refine (rowSum_apply _ hφ hacc c).trans ?_
  exact Finset.sum_congr rfl fun l _ => extf_apply _ hb _

/-- One group: columns `o … o + 255` of the comparison, summed along the row and set down as a column, count the
    labels of class `c` among labels `o … o + 255`. -/
private theorem group_apply (x15 : Vec Ideal S2048 .i32) (o : ℕ) (hs : S1000x2048.Slices ![0, o] S1000x256)
    (hb : FTy.bits .bf16 < FTy.bits .f32) (hφ : FKind.Formats .f32)
    (hacc : (0x00000000#32 : BitVec FTy.f32.bits) = FKind.add.neutral .f32 hφ) (c : Fin 1000) (u : Fin 1) :
    shapeCast S1000x1 (multiReduction .add [1] S1000
        (extf .f32 (extractStridedSlice S1000x256 ![0, o] (k0_pay6 (F := Ideal) classIds x15) hs) hb)
        0x00000000#32 reduces_S1000x256_S1000 hφ hacc) shapeCasts_S1000_S1000x1 (ix2 c u)
      = ∑ l : Fin 256, ind x15 c (o + l.val) := by
  refine (group_sum _ hb hφ hacc c u).trans ?_
  refine Finset.sum_congr rfl fun l _ => ?_
  have h1 : o + 256 ≤ 2048 := hs.2 1
  have hlt : o + l.val < 2048 := by have := l.isLt; omega
  refine (slice2_axis1_apply o _ hs c l ⟨o + l.val, hlt⟩ rfl).trans ?_
  rw [onehot_apply, ind, dif_pos hlt]

/-- A stretch of a sum over the naturals followed by the next `n` terms is the longer stretch. -/
private theorem sum_range_step {M : Type*} [AddCommMonoid M] (g : ℕ → M) (a n b : ℕ) (hb : a + n = b) :
    ∑ k ∈ Finset.range a, g k + ∑ l : Fin n, g (a + l.val) = ∑ k ∈ Finset.range b, g k := by
  rw [← hb, Finset.sum_range_add, Finset.sum_range (fun x => g (a + x))]

/-- Eight consecutive groups of 256 terms, added up from zero in order, are the 2048 terms. -/
private theorem sum_eight_groups {M : Type*} [AddCommMonoid M] (g : ℕ → M) :
    ((((((((0 + ∑ l : Fin 256, g (0 + l.val)) + ∑ l : Fin 256, g (256 + l.val)) + ∑ l : Fin 256, g (512 + l.val))
      + ∑ l : Fin 256, g (768 + l.val)) + ∑ l : Fin 256, g (1024 + l.val)) + ∑ l : Fin 256, g (1280 + l.val))
      + ∑ l : Fin 256, g (1536 + l.val)) + ∑ l : Fin 256, g (1792 + l.val)) = ∑ j : Fin 2048, g j.val := by
  rw [← Finset.sum_range_zero g, sum_range_step g 0 256 256 rfl, sum_range_step g 256 256 512 rfl,
    sum_range_step g 512 256 768 rfl, sum_range_step g 768 256 1024 rfl, sum_range_step g 1024 256 1280 rfl,
    sum_range_step g 1280 256 1536 rfl, sum_range_step g 1536 256 1792 rfl, sum_range_step g 1792 256 2048 rfl,
    Finset.sum_range]

/-- The counts accumulator after one chunk: what it held plus, at `c`, the number of the chunk's rows whose label is `c`. -/
theorem counts_payload_apply (x15 : Vec Ideal S2048 .i32) (acc : Vec Ideal S1000x1 .f32) (c : Fin 1000) :
    k0_pay3 (F := Ideal) (k0_pay6 classIds x15) (k0_pay8 classIds x15) (k0_pay9 classIds x15) acc (ix2 c (0 : Fin 1))
      = acc (ix2 c (0 : Fin 1)) + ∑ j : Fin 2048, if (x15 (ix1 j)).toInt = (c.val : ℤ) then (1 : EReal) else 0 := by
  have g0 := group_apply x15 0 slices_S1000x2048_o0_0_S1000x256 bitsLt_bf16_f32 (.inl rfl) rfl c 0
  have g1 := group_apply x15 256 slices_S1000x2048_o0_256_S1000x256 bitsLt_bf16_f32 (.inl rfl) rfl c 0
  have g2 := group_apply x15 512 slices_S1000x2048_o0_512_S1000x256 bitsLt_bf16_f32 (.inl rfl) rfl c 0
  have g3 := group_apply x15 768 slices_S1000x2048_o0_768_S1000x256 bitsLt_bf16_f32 (.inl rfl) rfl c 0
  have g4 := group_apply x15 1024 slices_S1000x2048_o0_1024_S1000x256 bitsLt_bf16_f32 (.inl rfl) rfl c 0
  have g5 := group_apply x15 1280 slices_S1000x2048_o0_1280_S1000x256 bitsLt_bf16_f32 (.inl rfl) rfl c 0
  have g6 := group_apply x15 1536 slices_S1000x2048_o0_1536_S1000x256 bitsLt_bf16_f32 (.inl rfl) rfl c 0
  have g7 := group_apply x15 1792 slices_S1000x2048_o0_1792_S1000x256 bitsLt_bf16_f32 (.inl rfl) rfl c 0
  have hz : broadcast S1000x1 (Scalar.ofBits (F := Ideal) .f32 0x00000000#32) (ix2 c (0 : Fin 1)) = (0 : EReal) :=
    Ideal.ofBits_zero_f32
  unfold k0_pay3 k0_pay8 k0_pay9
  rw [shapeCast_self]
  simp only [addf_apply]
  rw [g0, g1, g2, g3, g4, g5, g6, g7, hz, sum_eight_groups (ind x15 c)]
  refine congrArg (acc (ix2 c (0 : Fin 1)) + ·) (Finset.sum_congr rfl fun j _ => ?_)
  exact dif_pos j.isLt

/-- The reset value of the sums accumulator is zero everywhere. -/
theorem zero_sums_apply (i : S1000x256.Idx) : k0_pay1 (F := Ideal) i = 0 := by
  unfold k0_pay1
  rw [shapeCast_self]
  exact Ideal.ofBits_zero_f32

/-- The reset value of the counts accumulator is zero everywhere. -/
theorem zero_counts_apply (i : S1000x1.Idx) : k0_pay2 (F := Ideal) i = 0 := by
  unfold k0_pay2
  rw [shapeCast_self]
  exact Ideal.ofBits_zero_f32

/-- The sums written back are the accumulator with a leading axis of one. -/
theorem out_sums_apply (v : Vec Ideal S1000x256 .f32) (p : Fin 1) (c : Fin 1000) (d : Fin 256) :
    k0_pay4 (F := Ideal) v (ix3 p c d) = v (ix2 c d) := by
  unfold k0_pay4
  exact shapeCast_ab_1ab_apply v shapeCasts_S1000x256_S1x1000x256 p c d

/-- The counts written back are the accumulator with a leading axis of one. -/
theorem out_counts_apply (v : Vec Ideal S1000x1 .f32) (p : Fin 1) (c : Fin 1000) (e : Fin 1) :
    k0_pay5 (F := Ideal) v (ix3 p c e) = v (ix2 c e) := by
  unfold k0_pay5
  exact shapeCast_ab_1ab_apply v shapeCasts_S1000x1_S1x1000x1 p c e

end Cert.KernelIdeal.SegValue

end
-- ==== Proof.PointValue.lean ====
import proofs.«409254_j45569603010859_3_alg».proof.Proof.CaseRead
import proofs.«409254_j45569603010859_3_alg».proof.Proof.Payload
import proofs.«409254_j45569603010859_3_alg».proof.Proof.Spec
import Idealize.ShloMosaic.Lib.WholeRead

/-!
# One grid point, in rows

When the staged block is rows `b … b + 8191` of the array of rows and of the labels, the four trips of a point add to
the sums accumulator, at class `c` and column `d`, the sum of column `d` over the rows of class `c` among those 8192,
and to the counts accumulator their number: four consecutive stretches of 2048 rows are one stretch of 8192.
-/

set_option maxRecDepth 16384

noncomputable section

open scoped BigOperators

namespace Cert.KernelIdeal.SegValue

open Idealize.ShloMosaic Idealize.ShloMosaic.ValueIdx
open Cert.KernelIdeal Cert.KernelIdeal.Gen Cert.SegMean

theorem trips_eq : k0_t1_loop.trips = 4 := by decide

section Point

variable (z : Sz.Idx → EReal) (lab : IVec Slab 32)
variable (arg2 : Memref sig .tc .vmem S8192x256 .f32) (harg2 : arg2.IsWhole) (arg3 : Memref sig .tc .vmem S8192 .i32) (harg3 : arg3.IsWhole)
variable (x0 : Vec Ideal S8192x256 .f32) (x1 : Vec Ideal S8192 .i32) (b : ℕ)

/-- Row `j` of chunk `k` of the staged rows is row `2048 k + j` of the block. -/
theorem rowsChunk_apply (k : Fin k0_t1_loop.trips) (j : Fin 2048) (d : Fin 256) (h : 2048 * k.val + j.val < 8192) :
    rowsChunk (F := Ideal) arg2 (harg2.unread x0) k (ix2 j d) = x0 (ix2 ⟨2048 * k.val + j.val, h⟩ d) := by
  unfold rowsChunk
  rw [harg2.readAt_unread]
  congr 1
  funext a
  apply Fin.ext
  have ho := k0_off1_eq k
  match a with
  | ⟨0, _⟩ => show k0_off1 k 0 + 1 * j.val = 2048 * k.val + j.val
              rw [ho]; simp
  | ⟨1, _⟩ => show k0_off1 k 1 + 1 * d.val = d.val
              rw [ho]; simp

/-- Label `j` of chunk `k` is label `2048 k + j` of the block. -/
theorem labsChunk_apply (k : Fin k0_t1_loop.trips) (j : Fin 2048) (h : 2048 * k.val + j.val < 8192) :
    labsChunk (F := Ideal) arg3 (harg3.unread x1) k (ix1 j) = x1 (ix1 ⟨2048 * k.val + j.val, h⟩) := by
  unfold labsChunk
  rw [harg3.readAt_unread]
  congr 1
  funext a
  apply Fin.ext
  have ho := k0_off2_eq k
  match a with
  | ⟨0, _⟩ => show k0_off2 k 0 + 1 * j.val = 2048 * k.val + j.val
              rw [ho]; simp

variable (hx0 : ∀ (r : Fin 8192) (d : Fin 256), x0 (ix2 r d) = zAt z (b + r.val) d.val)
variable (hx1 : ∀ r : Fin 8192, (x1 (ix1 r)).toInt = labAt lab (b + r.val))

include hx0 hx1 in
/-- Chunk `k` adds the stretch of rows `b + 2048 k … b + 2048 k + 2047`. -/
theorem sumsStep_apply (k : Fin k0_t1_loop.trips) (a : Vec Ideal S1000x256 .f32) (c : Fin 1000) (d : Fin 256) :
    sumsStep (F := Ideal) arg2 arg3 classCol (harg2.unread x0) (harg3.unread x1) k a (ix2 c d)
      = a (ix2 c d) + segSum z lab (b + 2048 * k.val) (b + 2048 * k.val + 2048) c.val d.val := by
  have hk : k.val < 4 := lt_of_lt_of_eq k.isLt trips_eq
  refine (sums_payload_apply (rowsChunk (F := Ideal) arg2 (harg2.unread x0) k) (labsChunk (F := Ideal) arg3 (harg3.unread x1) k) a c d).trans ?_
  refine congrArg (a (ix2 c d) + ·) ?_
  refine Eq.trans ?_ (segSum_eq_sum_fin z lab (b + 2048 * k.val) 2048 c.val d.val).symm
  refine Finset.sum_congr rfl fun j _ => ?_
  have hj : 2048 * k.val + j.val < 8192 := by have := j.isLt; omega
  have e1 := labsChunk_apply arg3 harg3 x1 k j hj
  have e2 := rowsChunk_apply arg2 harg2 x0 k j d hj
  have e3 := hx0 ⟨2048 * k.val + j.val, hj⟩ d
  have e4 := hx1 ⟨2048 * k.val + j.val, hj⟩
  rw [e1, e2, e3, e4]
  simp only [Nat.add_assoc]

include hx1 in
theorem countsStep_apply (k : Fin k0_t1_loop.trips) (a : Vec Ideal S1000x1 .f32) (c : Fin 1000) :
    countsStep (F := Ideal) arg3 classCol (harg3.unread x1) k a (ix2 c (0 : Fin 1))
      = a (ix2 c (0 : Fin 1)) + segCnt lab (b + 2048 * k.val) (b + 2048 * k.val + 2048) c.val := by
  have hk : k.val < 4 := lt_of_lt_of_eq k.isLt trips_eq
  refine (counts_payload_apply (labsChunk (F := Ideal) arg3 (harg3.unread x1) k) a c).trans ?_
  refine congrArg (a (ix2 c (0 : Fin 1)) + ·) ?_
  refine Eq.trans ?_ (segCnt_eq_sum_fin lab (b + 2048 * k.val) 2048 c.val).symm
  refine Finset.sum_congr rfl fun j _ => ?_
  have hj : 2048 * k.val + j.val < 8192 := by have := j.isLt; omega
  have e1 := labsChunk_apply arg3 harg3 x1 k j hj
  have e4 := hx1 ⟨2048 * k.val + j.val, hj⟩
  rw [e1, e4]
  simp only [Nat.add_assoc]

include hx0 hx1 in
/-- After `n` trips: the stretch of the first `2048 n` rows of the block. -/
theorem sumsAfter_apply (a : Vec Ideal S1000x256 .f32) (c : Fin 1000) (d : Fin 256) : ∀ n : ℕ, n ≤ 4 →
    sumsAfter (F := Ideal) arg2 arg3 classCol (harg2.unread x0) (harg3.unread x1) a n (ix2 c d)
      = a (ix2 c d) + segSum z lab b (b + 2048 * n) c.val d.val
  | 0, _ => by rw [sumsAfter, Nat.mul_zero, Nat.add_zero, segSum_self, add_zero]
  | n + 1, hn => by
    have hk : n < k0_t1_loop.trips := by rw [trips_eq]; omega
    have hs := sumsStep_apply z lab arg2 harg2 arg3 harg3 x0 x1 b hx0 hx1 ⟨n, hk⟩
      (sumsAfter (F := Ideal) arg2 arg3 classCol (harg2.unread x0) (harg3.unread x1) a n) c d
    have ih := sumsAfter_apply a c d n (by omega)
    have e : b + 2048 * n + 2048 = b + 2048 * (n + 1) := by omega
    rw [sumsAfter, dif_pos hk, hs, ih, add_assoc]
    show _ + (segSum z lab b (b + 2048 * n) c.val d.val + segSum z lab (b + 2048 * n) (b + 2048 * n + 2048) c.val d.val) = _
    rw [segSum_append z lab (by omega) (by omega), e]

include hx1 in
theorem countsAfter_apply (a : Vec Ideal S1000x1 .f32) (c : Fin 1000) : ∀ n : ℕ, n ≤ 4 →
    countsAfter (F := Ideal) arg3 classCol (harg3.unread x1) a n (ix2 c (0 : Fin 1))
      = a (ix2 c (0 : Fin 1)) + segCnt lab b (b + 2048 * n) c.val
  | 0, _ => by rw [countsAfter, Nat.mul_zero, Nat.add_zero, segCnt_self, add_zero]
  | n + 1, hn => by
    have hk : n < k0_t1_loop.trips := by rw [trips_eq]; omega
    have hs := countsStep_apply lab arg3 harg3 x1 b hx1 ⟨n, hk⟩
      (countsAfter (F := Ideal) arg3 classCol (harg3.unread x1) a n) c
    have ih := countsAfter_apply a c n (by omega)
    have e : b + 2048 * n + 2048 = b + 2048 * (n + 1) := by omega
    rw [countsAfter, dif_pos hk, hs, ih, add_assoc]
    show _ + (segCnt lab b (b + 2048 * n) c.val + segCnt lab (b + 2048 * n) (b + 2048 * n + 2048) c.val) = _
    rw [segCnt_append lab (by omega) (by omega), e]

include hx0 hx1 in
/-- A whole point adds the block's 8192 rows. -/
theorem sumsPoint_apply (a : Vec Ideal S1000x256 .f32) (c : Fin 1000) (d : Fin 256) :
    sumsPoint (F := Ideal) arg2 harg2 arg3 harg3 x0 x1 a (ix2 c d) = a (ix2 c d) + segSum z lab b (b + 8192) c.val d.val := by
  have h := sumsAfter_apply z lab arg2 harg2 arg3 harg3 x0 x1 b hx0 hx1 a c d 4 (le_refl _)
  have e : k0_t1_loop.trips = 4 := trips_eq
  show sumsAfter (F := Ideal) arg2 arg3 classCol (harg2.unread x0) (harg3.unread x1) a k0_t1_loop.trips (ix2 c d) = _
  rw [e, h]

include hx1 in
theorem countsPoint_apply (a : Vec Ideal S1000x1 .f32) (c : Fin 1000) :
    countsPoint (F := Ideal) arg3 harg3 x1 a (ix2 c (0 : Fin 1)) = a (ix2 c (0 : Fin 1)) + segCnt lab b (b + 8192) c.val := by
  have h := countsAfter_apply lab arg3 harg3 x1 b hx1 a c 4 (le_refl _)
  have e : k0_t1_loop.trips = 4 := trips_eq
  show countsAfter (F := Ideal) arg3 classCol (harg3.unread x1) a k0_t1_loop.trips (ix2 c (0 : Fin 1)) = _
  rw [e, h]

end Point

end Cert.KernelIdeal.SegValue

end
-- ==== Proof.KernelValue.lean ====
import proofs.«409254_j45569603010859_3_alg».proof.Proof.PointValue

/-!
# The two partial arrays the region leaves

Grid point `t` stages rows `8192 t … 8192 t + 8191`. Points `0 … 7` are the first half of the rows, `8 … 15` the second;
each half starts from zero and writes its accumulators out at its last point. So after point `t` the accumulators hold
the stretch of rows from the start of `t`'s half to the end of `t`'s block, and slab `p` of each partial array ends
holding half `p`: rows `65536 p … 65536 p + 65535`.
-/

set_option maxRecDepth 16384

noncomputable section

open scoped BigOperators

namespace Cert.KernelIdeal.SegValue

open Idealize.ShloMosaic Idealize.ShloMosaic.TcCoe Idealize.ShloMosaic.ValueIdx
open Idealize.SL Idealize.SL.Sem
open Cert.KernelIdeal Cert.KernelIdeal.Gen Cert.SegMean

variable (m : (ℓ : Loc nD τ sig) → Buf (Elt Ideal) ℓ) (c : Dev nD)

/-- The rows as the program finds them. -/
abbrev zArr : Sz.Idx → EReal := m ((c : Thread nD τ).loc main_arg0)
/-- The labels as the program finds them. -/
abbrev labArr : IVec Slab 32 := m ((c : Thread nD τ).loc main_arg3)

/-- The staged block of rows and of labels at a point, at their literal types. -/
abbrev zblk (t : Fin cfg0.N) : Vec Ideal S8192x256 .f32 := iblk m c 0 t
abbrev lblk (t : Fin cfg0.N) : Vec Ideal S8192 .i32 := iblk m c 1 t

/-- Point `t` stages block `t` of the rows and of the labels; it writes slab `t / 8` of each partial array. -/
theorem idx_rows : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_labs : ∀ t : Fin cfg0.N, win0_1.index t (0 : Fin 1) = t.val :=
  (by decide +kernel : ∀ t : Fin grid0.N, win0_1.index t (0 : Fin 1) = t.val)

theorem zblk_apply (t : Fin cfg0.N) (r : Fin 8192) (d : Fin 256) :
    zblk m c t (ix2 r d) = zAt (zArr m c) (8192 * t.val + r.val) d.val := by
  have hi := idx_rows t
  have hN : t.val < 16 := lt_of_lt_of_eq t.isLt (show cfg0.N = 16 from N_0)
  have hr := r.isLt
  have hlt : 8192 * t.val + r.val < 131072 := by omega
  unfold zAt
  rw [dif_pos ⟨hlt, d.isLt⟩]
  show iblk m c 0 t (ix2 r d) = _
  unfold iblk
  rw [View.read_apply]
  show V m c main_arg0 _ = m ((c : Thread nD τ).loc main_arg0) _
  unfold V
  congr 1
  funext a
  apply Fin.ext
  match a with
  | ⟨0, _⟩ => show win0_0.index t 0 * 8192 + 1 * r.val = 8192 * t.val + r.val
              rw [hi.1]; omega
  | ⟨1, _⟩ => show win0_0.index t 1 * 256 + 1 * d.val = d.val
              rw [hi.2]; omega

theorem lblk_apply (t : Fin cfg0.N) (r : Fin 8192) :
    (lblk m c t (ix1 r)).toInt = labAt (labArr m c) (8192 * t.val + r.val) := by
  have hi := idx_labs t
  have hN : t.val < 16 := lt_of_lt_of_eq t.isLt (show cfg0.N = 16 from N_0)
  have hr := r.isLt
  have hlt : 8192 * t.val + r.val < 131072 := by omega
  unfold labAt
  rw [dif_pos hlt]
  congr 1
  show iblk m c 1 t (ix1 r) = _
  unfold iblk
  rw [View.read_apply]
  show V m c main_arg3 _ = m ((c : Thread nD τ).loc main_arg3) _
  unfold V
  congr 1
  funext a
  apply Fin.ext
  match a with
  | ⟨0, _⟩ => show win0_1.index t 0 * 8192 + 1 * r.val = 8192 * t.val + r.val
              rw [hi]; omega

/-! ## Point by point -/

/-- After point `n` the sums accumulator holds the stretch of rows from the start of `n`'s half to the end of `n`'s block. -/
theorem sums_after_point : ∀ (n : ℕ) (h : n < cfg0.N) (cl : Fin 1000) (d : Fin 256),
    (outsAt0 m c n h).2.2.1 (ix2 cl d)
      = segSum (zArr m c) (labArr m c) (65536 * (n / 8)) (8192 * (n + 1)) cl.val d.val := by
  intro n
  induction n using Nat.strong_induction_on with
  | _ n ih =>
    intro h cl d
    have hN : n < 16 := lt_of_lt_of_eq h (show cfg0.N = 16 from N_0)
    have hpt := fun a => sumsPoint_apply (zArr m c) (labArr m c) (ms0_0 (⟨n, h⟩ : Fin cfg0.N)) (hs0_0 (⟨n, h⟩ : Fin cfg0.N)) (ms0_1 (⟨n, h⟩ : Fin cfg0.N)) (hs0_1 (⟨n, h⟩ : Fin cfg0.N)) (zblk m c (⟨n, h⟩ : Fin cfg0.N)) (lblk m c (⟨n, h⟩ : Fin cfg0.N)) (8192 * n) (zblk_apply m c (⟨n, h⟩ : Fin cfg0.N)) (lblk_apply m c (⟨n, h⟩ : Fin cfg0.N)) a cl d
    have e3 : 8192 * n + 8192 = 8192 * (n + 1) := by omega
    by_cases h0 : n % 8 = 0
    · have h1 : ¬ n % 8 = 7 := by omega
      rw [outsAt0_A m c ⟨n, h⟩ h0 h1]
      dsimp only
      rw [sout_A_0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) (iblk m c 0 ⟨n, h⟩) (iblk m c 1 ⟨n, h⟩)]
      rw [hpt, zero_sums_apply, zero_add, e3]
      have e2 : 65536 * (n / 8) = 8192 * n := by omega
      rw [e2]
    · have hn0 : n ≠ 0 := fun e => h0 (by rw [e])
      have ihp := ih (n - 1) (by omega) (by omega) cl d
      have e1 : 8192 * (n - 1 + 1) = 8192 * n := by omega
      have e2 : 65536 * ((n - 1) / 8) = 65536 * (n / 8) := by omega
      rw [e1, e2] at ihp
      by_cases h1 : n % 8 = 7
      · rw [outsAt0_C m c ⟨n, h⟩ h0 h1]
        dsimp only
        rw [sout_C_0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) (iblk m c 0 ⟨n, h⟩) (iblk m c 1 ⟨n, h⟩)]
        rw [hpt, ihp, e3, segSum_append _ _ (by omega) (by omega)]
      · rw [outsAt0_B m c ⟨n, h⟩ h0 h1]
        dsimp only
        rw [sout_B_0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) (iblk m c 0 ⟨n, h⟩) (iblk m c 1 ⟨n, h⟩)]
        rw [hpt, ihp, e3, segSum_append _ _ (by omega) (by omega)]

/-- And the counts accumulator their number. -/
theorem counts_after_point : ∀ (n : ℕ) (h : n < cfg0.N) (cl : Fin 1000),
    (outsAt0 m c n h).2.2.2 (ix2 cl (0 : Fin 1))
      = segCnt (labArr m c) (65536 * (n / 8)) (8192 * (n + 1)) cl.val := by
  intro n
  induction n using Nat.strong_induction_on with
  | _ n ih =>
    intro h cl
    have hN : n < 16 := lt_of_lt_of_eq h (show cfg0.N = 16 from N_0)
    have hpt := fun a => countsPoint_apply (labArr m c) (ms0_1 (⟨n, h⟩ : Fin cfg0.N)) (hs0_1 (⟨n, h⟩ : Fin cfg0.N)) (lblk m c (⟨n, h⟩ : Fin cfg0.N)) (8192 * n) (lblk_apply m c (⟨n, h⟩ : Fin cfg0.N)) a cl
    have e3 : 8192 * n + 8192 = 8192 * (n + 1) := by omega
    by_cases h0 : n % 8 = 0
    · have h1 : ¬ n % 8 = 7 := by omega
      rw [outsAt0_A m c ⟨n, h⟩ h0 h1]
      dsimp only
      rw [sout_A_1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) (iblk m c 0 ⟨n, h⟩) (iblk m c 1 ⟨n, h⟩)]
      rw [hpt, zero_counts_apply, zero_add, e3]
      have e2 : 65536 * (n / 8) = 8192 * n := by omega
      rw [e2]
    · have hn0 : n ≠ 0 := fun e => h0 (by rw [e])
      have ihp := ih (n - 1) (by omega) (by omega) cl
      have e1 : 8192 * (n - 1 + 1) = 8192 * n := by omega
      have e2 : 65536 * ((n - 1) / 8) = 65536 * (n / 8) := by omega
      rw [e1, e2] at ihp
      by_cases h1 : n % 8 = 7
      · rw [outsAt0_C m c ⟨n, h⟩ h0 h1]
        dsimp only
        rw [sout_C_1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) (iblk m c 0 ⟨n, h⟩) (iblk m c 1 ⟨n, h⟩)]
        rw [hpt, ihp, e3, segCnt_append _ (by omega) (by omega)]
      · rw [outsAt0_B m c ⟨n, h⟩ h0 h1]
        dsimp only
        rw [sout_B_1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) (iblk m c 0 ⟨n, h⟩) (iblk m c 1 ⟨n, h⟩)]
        rw [hpt, ihp, e3, segCnt_append _ (by omega) (by omega)]

/-! ## What the region leaves in the two partial arrays -/

/-- Slab `p` of the first partial array: the sums over half `p` of the rows. -/
def halfSums : Buf (Elt Ideal) ((c : Thread nD τ).loc main_v0_0) :=
  fun j => segSum (zArr m c) (labArr m c) (65536 * (j 0).val) (65536 * (j 0).val + 65536) (j 1).val (j 2).val

/-- Slab `p` of the second: the counts over half `p`. -/
def halfCounts : Buf (Elt Ideal) ((c : Thread nD τ).loc main_v0_1) :=
  fun j => segCnt (labArr m c) (65536 * (j 0).val) (65536 * (j 0).val + 65536) (j 1).val

theorem idx_out2 : ∀ t : Fin cfg0.N, win0_2.index t (0 : Fin 3) = t.val / 8 ∧ win0_2.index t (1 : Fin 3) = 0 ∧ win0_2.index t (2 : Fin 3) = 0 :=
  (by decide +kernel : ∀ t : Fin grid0.N, win0_2.index t (0 : Fin 3) = t.val / 8 ∧ win0_2.index t (1 : Fin 3) = 0 ∧ win0_2.index t (2 : Fin 3) = 0)
theorem idx_out3 : ∀ t : Fin cfg0.N, win0_3.index t (0 : Fin 3) = t.val / 8 ∧ win0_3.index t (1 : Fin 3) = 0 ∧ win0_3.index t (2 : Fin 3) = 0 :=
  (by decide +kernel : ∀ t : Fin grid0.N, win0_3.index t (0 : Fin 3) = t.val / 8 ∧ win0_3.index t (1 : Fin 3) = 0 ∧ win0_3.index t (2 : Fin 3) = 0)

/-- The last point of a half writes back that half's slab of sums. -/
theorem flushed2_eq (t : Fin cfg0.N) (hf : (cfg0.win 2).flush t = true) :
    (dats m 0 c).flushed 2 t = ((cfg0.win 2).blk t).view.read (Elt Ideal) (halfSums m c) := by
  have h7 : t.val % 8 = 7 := (flush0_2 t).mp hf
  have h0 : ¬ t.val % 8 = 0 := by omega
  have hN : t.val < 16 := lt_of_lt_of_eq t.isLt (show cfg0.N = 16 from N_0)
  have hi := idx_out2 t
  have hs := fun cl d => sums_after_point m c t.val t.isLt cl d
  rw [outsAt0_C m c t h0 h7] at hs
  dsimp only at hs
  rw [sout_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t)] at hs
  show (cfg0.win 2).cut (grid0.coords t) ((dats m 0 c).after 2 t) = _
  rw [after0_2, outsAt0_C m c t h0 h7]
  dsimp only
  rw [out_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t)]
  funext y
  obtain ⟨p, cl, d, hy⟩ : ∃ (p : Fin 1) (cl : Fin 1000) (d : Fin 256), (win0 2).xinj (grid0.coords t) y = ix3 p cl d :=
    ⟨_, _, _, eq_ix3 _⟩
  have hy0 : (y 0).val = p.val := congrArg Fin.val (congrFun hy 0)
  have hy1 : (y 1).val = cl.val := congrArg Fin.val (congrFun hy 1)
  have hy2 : (y 2).val = d.val := congrArg Fin.val (congrFun hy 2)
  have hp : p.val = 0 := by have := p.isLt; omega
  show k0_pay4 _ ((win0 2).xinj (grid0.coords t) y) = _
  rw [hy, out_sums_apply, hs, View.read_apply]
  show _ = segSum (zArr m c) (labArr m c) (65536 * (win0_2.index t 0 * 1 + 1 * (y 0).val))
    (65536 * (win0_2.index t 0 * 1 + 1 * (y 0).val) + 65536) (win0_2.index t 1 * 1000 + 1 * (y 1).val)
    (win0_2.index t 2 * 256 + 1 * (y 2).val)
  rw [hi.1, hi.2.1, hi.2.2, hy0, hy1, hy2, hp]
  congr 1 <;> omega

/-- And that half's slab of counts. -/
theorem flushed3_eq (t : Fin cfg0.N) (hf : (cfg0.win 3).flush t = true) :
    (dats m 0 c).flushed 3 t = ((cfg0.win 3).blk t).view.read (Elt Ideal) (halfCounts m c) := by
  have h7 : t.val % 8 = 7 := (flush0_3 t).mp hf
  have h0 : ¬ t.val % 8 = 0 := by omega
  have hN : t.val < 16 := lt_of_lt_of_eq t.isLt (show cfg0.N = 16 from N_0)
  have hi := idx_out3 t
  have hs := fun cl => counts_after_point m c t.val t.isLt cl
  rw [outsAt0_C m c t h0 h7] at hs
  dsimp only at hs
  rw [sout_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t)] at hs
  show (cfg0.win 3).cut (grid0.coords t) ((dats m 0 c).after 3 t) = _
  rw [after0_3, outsAt0_C m c t h0 h7]
  dsimp only
  rw [out_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t)]
  funext y
  obtain ⟨p, cl, e, hy⟩ : ∃ (p : Fin 1) (cl : Fin 1000) (e : Fin 1), (win0 3).xinj (grid0.coords t) y = ix3 p cl e :=
    ⟨_, _, _, eq_ix3 _⟩
  have hy0 : (y 0).val = p.val := congrArg Fin.val (congrFun hy 0)
  have hy1 : (y 1).val = cl.val := congrArg Fin.val (congrFun hy 1)
  have hp : p.val = 0 := by have := p.isLt; omega
  obtain rfl : e = 0 := Subsingleton.elim _ _
  show k0_pay5 _ ((win0 3).xinj (grid0.coords t) y) = _
  rw [hy, out_counts_apply, hs, View.read_apply]
  show _ = segCnt (labArr m c) (65536 * (win0_3.index t 0 * 1 + 1 * (y 0).val))
    (65536 * (win0_3.index t 0 * 1 + 1 * (y 0).val) + 65536) (win0_3.index t 1 * 1000 + 1 * (y 1).val)
  rw [hi.1, hi.2.1, hy0, hy1, hp]
  congr 1 <;> omega

/-- Every entry of the first partial array lies in the slab its half's last point writes back: the array ends
    holding the two halves' sums. -/
theorem final2 : (dats m 0 c).arrAt 2 cfg0.N = halfSums m c :=
  (dats m 0 c).arrAt_eq_of_cover 2 (halfSums m c) (flushed2_eq m c) fun i => by
    have hi0 : (i 0 : Nat) < 2 := (i 0).isLt
    have hi1 : (i 1 : Nat) < 1000 := (i 1).isLt
    have hi2 : (i 2 : Nat) < 256 := (i 2).isLt
    have hT : 8 * (i 0 : Nat) + 7 < cfg0.N := by rw [show cfg0.N = 16 from N_0]; omega
    refine ⟨⟨8 * (i 0 : Nat) + 7, hT⟩, (flush0_2 _).mpr (by dsimp only; omega), ?_⟩
    have hx := idx_out2 ⟨8 * (i 0 : Nat) + 7, hT⟩
    show i ∈ ((View.whole main_v0_0).slice (win0_2.rect ⟨8 * (i 0 : Nat) + 7, hT⟩)).set
    rw [View.set_slice_whole, Rect.mem_set_unit]
    intro a
    match a with
    | ⟨0, _⟩ => show win0_2.index ⟨8 * (i 0 : Nat) + 7, hT⟩ 0 * 1 ≤ (i 0 : Nat) ∧ (i 0 : Nat) < win0_2.index ⟨8 * (i 0 : Nat) + 7, hT⟩ 0 * 1 + 1
                rw [hx.1]; dsimp only; omega
    | ⟨1, _⟩ => show win0_2.index ⟨8 * (i 0 : Nat) + 7, hT⟩ 1 * 1000 ≤ (i 1 : Nat) ∧ (i 1 : Nat) < win0_2.index ⟨8 * (i 0 : Nat) + 7, hT⟩ 1 * 1000 + 1000
                rw [hx.2.1]; omega
    | ⟨2, _⟩ => show win0_2.index ⟨8 * (i 0 : Nat) + 7, hT⟩ 2 * 256 ≤ (i 2 : Nat) ∧ (i 2 : Nat) < win0_2.index ⟨8 * (i 0 : Nat) + 7, hT⟩ 2 * 256 + 256
                rw [hx.2.2]; omega

/-- And the second the two halves' counts. -/
theorem final3 : (dats m 0 c).arrAt 3 cfg0.N = halfCounts m c :=
  (dats m 0 c).arrAt_eq_of_cover 3 (halfCounts m c) (flushed3_eq m c) fun i => by
    have hi0 : (i 0 : Nat) < 2 := (i 0).isLt
    have hi1 : (i 1 : Nat) < 1000 := (i 1).isLt
    have hi2 : (i 2 : Nat) < 1 := (i 2).isLt
    have hT : 8 * (i 0 : Nat) + 7 < cfg0.N := by rw [show cfg0.N = 16 from N_0]; omega
    refine ⟨⟨8 * (i 0 : Nat) + 7, hT⟩, (flush0_3 _).mpr (by dsimp only; omega), ?_⟩
    have hx := idx_out3 ⟨8 * (i 0 : Nat) + 7, hT⟩
    show i ∈ ((View.whole main_v0_1).slice (win0_3.rect ⟨8 * (i 0 : Nat) + 7, hT⟩)).set
    rw [View.set_slice_whole, Rect.mem_set_unit]
    intro a
    match a with
    | ⟨0, _⟩ => show win0_3.index ⟨8 * (i 0 : Nat) + 7, hT⟩ 0 * 1 ≤ (i 0 : Nat) ∧ (i 0 : Nat) < win0_3.index ⟨8 * (i 0 : Nat) + 7, hT⟩ 0 * 1 + 1
                rw [hx.1]; dsimp only; omega
    | ⟨1, _⟩ => show win0_3.index ⟨8 * (i 0 : Nat) + 7, hT⟩ 1 * 1000 ≤ (i 1 : Nat) ∧ (i 1 : Nat) < win0_3.index ⟨8 * (i 0 : Nat) + 7, hT⟩ 1 * 1000 + 1000
                rw [hx.2.1]; omega
    | ⟨2, _⟩ => show win0_3.index ⟨8 * (i 0 : Nat) + 7, hT⟩ 2 * 1 ≤ (i 2 : Nat) ∧ (i 2 : Nat) < win0_3.index ⟨8 * (i 0 : Nat) + 7, hT⟩ 2 * 1 + 1
                rw [hx.2.2]; omega

end Cert.KernelIdeal.SegValue

end
-- ==== Proof.Combine.lean ====
import proofs.«409254_j45569603010859_3_alg».proof.Proof.Gen.KernelIdeal
import proofs.«409254_j45569603010859_3_alg».proof.Proof.Spec
import Idealize.ShloMosaic.PureOps.Ideal.Laws
import Idealize.ShloMosaic.Lib.ValueIdx

/-!
# The two halves added

The first program leaves two partial arrays, slab `p` holding the sums (the counts) over rows `65536 p … 65536 p + 65535`,
and adds the two slabs: the first half of the rows followed by the second half is all of them.
-/

noncomputable section

open scoped BigOperators

namespace Cert.KernelIdeal.SegValue

open Idealize.ShloMosaic Idealize.ShloMosaic.ValueIdx Cert.KernelIdeal Cert.SegMean

theorem combine_sums (z : Sz.Idx → EReal) (lab : IVec Slab 32) (X : FVec Ideal S2x1000x256 .f32)
    (hX : ∀ (p : Fin 2) (cl : Fin 1000) (d : Fin 256),
      X (ix3 p cl d) = segSum z lab (65536 * p.val) (65536 * p.val + 65536) cl.val d.val) :
    Host.reduceAdd (F := Ideal) X (constant (F := Ideal) S_ .f32 0x00000000#32)
        Facts₀.reducesTo_S2x1000x256_S1000x256_d0 Facts₀.h_S_
      = classSum z lab := by
  funext j
  obtain ⟨cl, d, rfl⟩ : ∃ (cl : Fin 1000) (d : Fin 256), j = ix2 cl d := ⟨j 0, j 1, eq_ix2 j⟩
  have hr : S2x1000x256.Reduces [0] S1000x256 := by decide
  simp only [Host.reduceAdd, Ideal.hostReduceAdd_def]
  rw [Ideal.hostReduceAdd_single _ hr]
  show Ideal.ofBits .f32 0x00000000#32 + ∑ k : Fin 2, X (hr.lift (ix2 cl d) k) = _
  have e0 : hr.lift (ix2 cl d) (0 : Fin 2) = ix3 (0 : Fin 2) cl d := by
    funext a; match a with | ⟨0, _⟩ => rfl | ⟨1, _⟩ => rfl | ⟨2, _⟩ => rfl
  have e1 : hr.lift (ix2 cl d) (1 : Fin 2) = ix3 (1 : Fin 2) cl d := by
    funext a; match a with | ⟨0, _⟩ => rfl | ⟨1, _⟩ => rfl | ⟨2, _⟩ => rfl
  rw [Ideal.ofBits_zero_f32, zero_add, Fin.sum_univ_two, e0, e1, hX, hX]
  exact segSum_append z lab (by decide) (by decide) cl.val d.val

theorem combine_counts (lab : IVec Slab 32) (Y : FVec Ideal S2x1000x1 .f32)
    (hY : ∀ (p : Fin 2) (cl : Fin 1000),
      Y (ix3 p cl (0 : Fin 1)) = segCnt lab (65536 * p.val) (65536 * p.val + 65536) cl.val) (cl : Fin 1000) :
    (Host.reduceAdd (F := Ideal) Y (constant (F := Ideal) S_ .f32 0x00000000#32)
        Facts₀.reducesTo_S2x1000x1_S1000x1_d0 Facts₀.h_S_ : S1000x1.Idx → EReal) (ix2 cl (0 : Fin 1))
      = classCount lab (ix1 cl) := by
  have hr : S2x1000x1.Reduces [0] S1000x1 := by decide
  simp only [Host.reduceAdd, Ideal.hostReduceAdd_def]
  rw [Ideal.hostReduceAdd_single _ hr]
  show Ideal.ofBits .f32 0x00000000#32 + ∑ k : Fin 2, Y (hr.lift (ix2 cl (0 : Fin 1)) k) = _
  have e0 : hr.lift (ix2 cl (0 : Fin 1)) (0 : Fin 2) = ix3 (0 : Fin 2) cl (0 : Fin 1) := by
    funext a; match a with | ⟨0, _⟩ => rfl | ⟨1, _⟩ => rfl | ⟨2, _⟩ => rfl
  have e1 : hr.lift (ix2 cl (0 : Fin 1)) (1 : Fin 2) = ix3 (1 : Fin 2) cl (0 : Fin 1) := by
    funext a; match a with | ⟨0, _⟩ => rfl | ⟨1, _⟩ => rfl | ⟨2, _⟩ => rfl
  rw [Ideal.ofBits_zero_f32, zero_add, Fin.sum_univ_two, e0, e1, hY, hY]
  exact segCnt_append lab (by decide) (by decide) cl.val

end Cert.KernelIdeal.SegValue

end
-- ==== Proof.RefScatter.lean ====
import proofs.«409254_j45569603010859_3_alg».proof.ReferenceIdeal
import proofs.«409254_j45569603010859_3_alg».proof.Proof.Spec
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

/-!
# The reference's two accumulating scatters are the per-class sum and count

The reference adds row `n` of `z` into row `lab n` of a zero array of 1000 rows, and adds `1` into entry `lab n` of a
zero vector of 1000 entries; a row whose label, read signed, is outside `0 ≤ · < 1000` lands nowhere. At the extended
reals an accumulating scatter is, entry by entry, the operand plus the sum of the updates that land there.
-/

noncomputable section

open scoped BigOperators

namespace Cert.ReferenceIdeal.SegValue

open Idealize.ShloMosaic Idealize.ShloMosaic.ValueIdx Cert.ReferenceIdeal Cert.SegMean

variable [Cert.ReferenceIdeal.Facts]
open Cert.ReferenceIdeal.Facts₀

/-- An update lands at `i` exactly when, on every axis of the operand, its start plus its window coordinate is `i`'s
    coordinate: being inside the operand is then automatic. -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    by_cases hc : ∀ a, 0 ≤ d.start j idx a + (d.window j a : ℤ) ∧ d.start j idx a + (d.window j a : ℤ) < s.size a
    · rw [dif_pos hc] at h
      have hi := congrFun (Option.some.inj h) a
      have hv : (d.start j idx a + (d.window j a : ℤ)).toNat = (i a).val := congrArg Fin.val hi
      have := (hc a).1
      omega
    · rw [dif_neg hc] at h
      exact absurd h (by simp)
  · intro h
    have hc : ∀ a, 0 ≤ d.start j idx a + (d.window j a : ℤ) ∧ d.start j idx a + (d.window j a : ℤ) < s.size a := by
      intro a
      rw [h a]
      exact ⟨Int.natCast_nonneg _, by exact_mod_cast (i a).isLt⟩
    rw [dif_pos hc]
    congr 1
    funext a
    apply Fin.ext
    show (d.start j idx a + (d.window j a : ℤ)).toNat = (i a).val
    rw [h a]
    exact Int.toNat_natCast _

private abbrev dS := scatter_S1000x256_S131072x1_S131072x256_1_0_0_1
private abbrev dC := scatter_S1000_S131072x1_S131072_n_0_0_1

/-- The class axis of the sums' scatter starts at the label of the update's row, read signed. -/
private theorem sums_start0 (idx : IVec S131072x1 32) (n : Fin 131072) (d' : Fin 256) :
    dS.start (ix2 n d') idx 0 = (idx (ix2 n 0)).toInt := by
  have hmem : (0 : Fin S1000x256.rank) ∈ dS.scatterDimsToOperandDims := List.mem_singleton.mpr rfl
  unfold ScatterDims.start
  rw [dif_pos hmem]
  congr 2
  funext b
  match b with
  | ⟨0, _⟩ => rfl
  | ⟨1, _⟩ => rfl

/-- The column axis is named by no scatter index: its start is zero. -/
private theorem sums_start1 (idx : IVec S131072x1 32) (n : Fin 131072) (d' : Fin 256) :
    dS.start (ix2 n d') idx 1 = 0 := rfl

/-- The class axis is an inserted one: the window contributes nothing there. -/
private theorem sums_window0 (n : Fin 131072) (d' : Fin 256) : dS.window (ix2 n d') 0 = 0 := rfl

/-- On the column axis the window coordinate is the update's column. -/
private theorem sums_window1 (n : Fin 131072) (d' : Fin 256) : dS.window (ix2 n d') 1 = d'.val := rfl

/-- Update `(n, d')` of the sums' scatter lands at `(c, d)` exactly when row `n`'s label is `c` and `d' = d`. -/
private theorem sums_lands (idx : IVec S131072x1 32) (n : Fin 131072) (d' : Fin 256) (i : S1000x256.Idx) :
    dS.resultIdx? (ix2 n d') idx = some i ↔ (idx (ix2 n 0)).toInt = ((i 0).val : ℤ) ∧ d'.val = (i 1).val := by
  rw [resultIdx?_eq_some_iff]
  constructor
  · intro h
    have h0 := h 0
    have h1 := h 1
    rw [sums_start0, sums_window0] at h0
    rw [sums_start1, sums_window1] at h1
    exact ⟨by simpa using h0, by exact_mod_cast (by simpa using h1 : (d'.val : ℤ) = ((i 1).val : ℤ))⟩
  · rintro ⟨h0, h1⟩ a
    match a with
    | ⟨0, _⟩ =>
      show dS.start (ix2 n d') idx 0 + ((dS.window (ix2 n d') 0 : ℕ) : ℤ) = ((i 0).val : ℤ)
      rw [sums_start0, sums_window0, h0]; simp
    | ⟨1, _⟩ =>
      show dS.start (ix2 n d') idx 1 + ((dS.window (ix2 n d') 1 : ℕ) : ℤ) = ((i 1).val : ℤ)
      rw [sums_start1, sums_window1, h1]; simp

/-- The scatter indices are the labels with a unit axis added: entry `(n, 0)` is row `n`'s label. -/
private theorem idx_apply (lab : IVec S131072 32) (n : Fin 131072) :
    broadcastInDim S131072x1 ![0] bcast_S131072_S131072x1_0 lab (ix2 n 0) = lab (ix1 n) := by
  refine broadcastInDim_apply _ _ _ _ (ix1 n) (fun a => ?_)
  obtain rfl : a = 0 := Subsingleton.elim _ _
  rw [if_neg (by decide)]
  rfl

/-- The specification's label reader at a row number inside the array. -/
private theorem labAt_fin (lab : IVec Slab 32) (n : Fin 131072) : labAt lab n.val = (lab (ix1 n)).toInt := by
  unfold labAt
  rw [dif_pos n.isLt]

/-- The specification's entry reader at a row and column inside the array. -/
private theorem zAt_fin (z : Sz.Idx → EReal) (n : Fin 131072) (d : ℕ) (hd : d < 256) :
    zAt z n.val d = z (ix2 n ⟨d, hd⟩) := by
  unfold zAt
  rw [dif_pos ⟨n.isLt, hd⟩]

/-- Scattering the rows of `z` by label into zeros and adding: per class and column, the class's sum over all rows. -/
theorem scatter_sums (z : FVec Ideal S131072x256 .f32) (lab : IVec S131072 32) :
    Host.scatterAdd (F := Ideal) scatter_S1000x256_S131072x1_S131072x256_1_0_0_1
      (broadcastInDim S1000x256 ![] bcast_S_S1000x256 (constant (F := Ideal) S_ .f32 0x00000000#32))
      (broadcastInDim S131072x1 ![0] bcast_S131072_S131072x1_0 lab) z
    = classSum z lab := by
  funext i
  unfold Host.scatterAdd
  rw [Ideal.hostScatterAdd_def]
  unfold Ideal.hostScatterAdd
  -- The operand is zero everywhere, so the entry is the sum of the updates that land on it: a sum over every update
  -- (row, column) of the update or zero, taken row by row.
  rw [broadcastInDim_scalar_apply, constant_apply, Ideal.ofBits_zero_f32, zero_add, Finset.sum_filter, sum_idx2]
  -- The class's sum over all rows, as a sum over the row numbers below 131072.
  show _ = segSum z lab 0 (0 + 131072) (i 0).val (i 1).val
  rw [segSum_eq_sum_fin]
  refine Finset.sum_congr rfl (fun n _ => ?_)
  simp only [sums_lands, Nat.zero_add]
  rw [idx_apply, labAt_fin, zAt_fin z n (i 1).val (idx2_lt1 i)]
  -- Within one row only the update in the entry's own column can land, and it does when the row's label is the class.
  rw [Finset.sum_eq_single (⟨(i 1).val, idx2_lt1 i⟩ : Fin 256)]
  · by_cases hl : (lab (ix1 n)).toInt = ((i 0).val : ℤ)
    · rw [if_pos ⟨hl, rfl⟩, if_pos hl]
    · rw [if_neg (fun h => hl h.1), if_neg hl]
  · intro b _ hb
    exact if_neg (fun h => hb (Fin.ext h.2))
  · intro h
    exact absurd (Finset.mem_univ _) h

/-- The counts' scatter starts at the label of the update's row, read signed. -/
private theorem counts_start0 (idx : IVec S131072x1 32) (n : Fin 131072) :
    dC.start (ix1 n) idx 0 = (idx (ix2 n 0)).toInt := by
  have hmem : (0 : Fin S1000.rank) ∈ dC.scatterDimsToOperandDims := List.mem_singleton.mpr rfl
  unfold ScatterDims.start
  rw [dif_pos hmem]
  congr 2
  funext b
  match b with
  | ⟨0, _⟩ => rfl
  | ⟨1, _⟩ => rfl

/-- The counts' updates have no window axes: the window contributes nothing. -/
private theorem counts_window0 (n : Fin 131072) : dC.window (ix1 n) 0 = 0 := rfl

/-- Update `n` of the counts' scatter lands at `c` exactly when row `n`'s label is `c`. -/
private theorem counts_lands (idx : IVec S131072x1 32) (n : Fin 131072) (i : S1000.Idx) :
    dC.resultIdx? (ix1 n) idx = some i ↔ (idx (ix2 n 0)).toInt = ((i 0).val : ℤ) := by
  rw [resultIdx?_eq_some_iff]
  constructor
  · intro h
    have h0 := h 0
    rw [counts_start0, counts_window0] at h0
    simpa using h0
  · intro h0 a
    obtain rfl : a = 0 := Subsingleton.elim _ _
    rw [counts_start0, counts_window0, h0]; simp

/-- Scattering ones by label into zeros and adding: per class, the class's number of rows. -/
theorem scatter_counts (lab : IVec S131072 32) :
    Host.scatterAdd (F := Ideal) scatter_S1000_S131072x1_S131072_n_0_0_1
      (broadcastInDim S1000 ![] bcast_S_S1000 (constant (F := Ideal) S_ .f32 0x00000000#32))
      (broadcastInDim S131072x1 ![0] bcast_S131072_S131072x1_0 lab)
      (broadcastInDim S131072 ![] bcast_S_S131072 (constant (F := Ideal) S_ .f32 0x3F800000#32))
    = classCount lab := by
  funext i
  unfold Host.scatterAdd
  rw [Ideal.hostScatterAdd_def]
  unfold Ideal.hostScatterAdd
  -- The operand is zero everywhere; the sum over the landing updates is a sum over all row numbers of one or zero.
  rw [broadcastInDim_scalar_apply, constant_apply, Ideal.ofBits_zero_f32, zero_add, Finset.sum_filter,
    ← Equiv.sum_comp (idxEquiv1 (n := 131072)).symm]
  show _ = segCnt lab 0 (0 + 131072) (i 0).val
  rw [segCnt_eq_sum_fin]
  refine Finset.sum_congr rfl (fun n _ => ?_)
  show (if dC.resultIdx? (ix1 n) _ = some i then
      broadcastInDim S131072 ![] bcast_S_S131072 (constant (F := Ideal) S_ .f32 0x3F800000#32) (ix1 n) else 0) = _
  -- Every update is the bit pattern of the float one, which is the extended real one.
  rw [broadcastInDim_scalar_apply, constant_apply, Ideal.ofBits_one_f32]
  simp only [counts_lands, Nat.zero_add]
  rw [idx_apply, labAt_fin]

end Cert.ReferenceIdeal.SegValue

end
-- ==== Proof.LibAgree.lean ====
import Idealize.ShloMosaic.Lib.StableHlo.Run

/-!
# Two lines of host operations stepped in lockstep

Two programs over two signatures run the same operations on buffers paired by position. `Agree P V₁ V₂` says the two
valuations hold the same contents at every pair of the list `P`; the contents of a pair are compared heterogeneously,
the two signatures giving the paired buffers types that are equal only once their tables are unfolded. `Sim P ops ops' Q`
says: from valuations agreeing on `P`, after `ops` on one side and `ops'` on the other the valuations agree on `Q`.
One rule per builder steps an operation on each side and adds the pair of result buffers; every buffer being written
once, a pair already listed is never written again (the freshness hypotheses).
-/

namespace Idealize.ShloMosaic.StableHlo

variable {τ : Topo} {sig₁ sig₂ : RefSig} {Val : EltTy → Type}

/-! ## Heterogeneous congruence -/

/-- Heterogeneously equal functions at heterogeneously equal arguments, the domains and the codomains being equal types. -/
theorem heq_app {A A' B B' : Type} (hA : A = A') (hB : B = B') {f : A → B} {f' : A' → B'} (hf : HEq f f')
    {a : A} {a' : A'} (ha : HEq a a') : HEq (f a) (f' a') := by
  subst hA hB; cases hf; cases ha; rfl

/-- Dependent families that agree pointwise, over pointwise equal types. -/
theorem heq_pi {ι : Type} {A A' : ι → Type} (hA : ∀ k, A k = A' k) {g : (k : ι) → A k} {g' : (k : ι) → A' k}
    (h : ∀ k, HEq (g k) (g' k)) : HEq g g' := by
  obtain rfl : A = A' := funext hA
  exact heq_of_eq (funext fun k => eq_of_heq (h k))

/-- Functions of a dependent family, likewise. -/
theorem heq_app_pi {ι : Type} {A A' : ι → Type} {B B' : Type} (hA : ∀ k, A k = A' k) (hB : B = B')
    {f : ((k : ι) → A k) → B} {f' : ((k : ι) → A' k) → B'} (hf : HEq f f')
    {g : (k : ι) → A k} {g' : (k : ι) → A' k} (h : ∀ k, HEq (g k) (g' k)) : HEq (f g) (f' g') := by
  obtain rfl : A = A' := funext hA
  subst hB; cases hf
  exact heq_of_eq (congrArg f (funext fun k => eq_of_heq (h k)))

/-- A reshape of heterogeneously equal contents, the buffer types being equal. -/
theorem heq_reshape {T₁ T₁' T₂ T₂' : BufTy} (h₁ : T₁ = T₁') (h₂ : T₂ = T₂') (he : T₁.elt = T₂.elt) (he' : T₁'.elt = T₂'.elt)
    (hn : T₁.shape.ShapeCasts T₂.shape) (hn' : T₁'.shape.ShapeCasts T₂'.shape)
    {a : T₁.Contents Val} {a' : T₁'.Contents Val} (ha : HEq a a') :
    HEq (fun i => he ▸ shapeCast T₂.shape a hn i : T₂.Contents Val) (fun i => he' ▸ shapeCast T₂'.shape a' hn' i : T₂'.Contents Val) := by
  subst h₁ h₂; cases ha; rfl

/-! ## Agreement on a list of pairs -/

/-- The two valuations hold the same contents at every pair of `P`. -/
def Agree (P : List (Ref sig₁ .tc × Ref sig₂ .tc)) (V₁ : Valuation τ sig₁ Val) (V₂ : Valuation τ sig₂ Val) : Prop :=
  ∀ p ∈ P, HEq (V₁ (Proc.devRef .tc p.1)) (V₂ (Proc.devRef .tc p.2))

namespace Agree

variable {P Q : List (Ref sig₁ .tc × Ref sig₂ .tc)} {V₁ : Valuation τ sig₁ Val} {V₂ : Valuation τ sig₂ Val}

theorem nil : Agree (τ := τ) (Val := Val) ([] : List (Ref sig₁ .tc × Ref sig₂ .tc)) V₁ V₂ := fun _ h => absurd h List.not_mem_nil

theorem cons {a : Ref sig₁ .tc} {a' : Ref sig₂ .tc} (h : HEq (V₁ (Proc.devRef .tc a)) (V₂ (Proc.devRef .tc a')))
    (t : Agree P V₁ V₂) : Agree ((a, a') :: P) V₁ V₂ := fun p hp => by
  rcases List.mem_cons.mp hp with rfl | hp
  · exact h
  · exact t p hp

/-- The contents at a listed pair. -/
theorem get (h : Agree P V₁ V₂) {a : Ref sig₁ .tc} {a' : Ref sig₂ .tc} (hin : (a, a') ∈ P) :
    HEq (V₁ (Proc.devRef .tc a)) (V₂ (Proc.devRef .tc a')) := h (a, a') hin

/-- Pairs may be dropped. -/
theorem mono (h : Agree P V₁ V₂) (hQ : Q ⊆ P) : Agree Q V₁ V₂ := fun p hp => h p (hQ hp)

/-- An operation on each side, each writing one buffer that no listed pair names, the two results being the same: the
    valuations after them agree on the list and on the pair of result buffers. -/
theorem write (h : Agree P V₁ V₂) {op : HloOp τ sig₁ Val} {op' : HloOp τ sig₂ Val} {y : Ref sig₁ .tc} {y' : Ref sig₂ .tc}
    (hw : op.writes = {Proc.devRef .tc y}) (hw' : op'.writes = {Proc.devRef .tc y'})
    (hy : y ∉ P.map Prod.fst) (hy' : y' ∉ P.map Prod.snd)
    (hres : HEq (op.result V₁ (Proc.devRef .tc y)) (op'.result V₂ (Proc.devRef .tc y'))) :
    Agree ((y, y') :: P) (op.result V₁) (op'.result V₂) := fun p hp => by
  rcases List.mem_cons.mp hp with rfl | hp
  · exact hres
  · have h1 : Proc.devRef .tc p.1 ∉ op.writes := by
      rw [hw, Finset.mem_singleton]
      exact devRef_ne_of_ne fun e => hy (e ▸ List.mem_map_of_mem (f := Prod.fst) hp)
    have h2 : Proc.devRef .tc p.2 ∉ op'.writes := by
      rw [hw', Finset.mem_singleton]
      exact devRef_ne_of_ne fun e => hy' (e ▸ List.mem_map_of_mem (f := Prod.snd) hp)
    rw [op.result_of_not_mem V₁ h1, op'.result_of_not_mem V₂ h2]
    exact h p hp

/-- An operation on the first side only, writing one buffer that no listed pair names. -/
theorem writeL (h : Agree P V₁ V₂) {op : HloOp τ sig₁ Val} {y : Ref sig₁ .tc}
    (hw : op.writes = {Proc.devRef .tc y}) (hy : y ∉ P.map Prod.fst) : Agree P (op.result V₁) V₂ := fun p hp => by
  have h1 : Proc.devRef .tc p.1 ∉ op.writes := by
    rw [hw, Finset.mem_singleton]
    exact devRef_ne_of_ne fun e => hy (e ▸ List.mem_map_of_mem (f := Prod.fst) hp)
  rw [op.result_of_not_mem V₁ h1]
  exact h p hp

/-- An operation on the second side only. -/
theorem writeR (h : Agree P V₁ V₂) {op' : HloOp τ sig₂ Val} {y' : Ref sig₂ .tc}
    (hw' : op'.writes = {Proc.devRef .tc y'}) (hy' : y' ∉ P.map Prod.snd) : Agree P V₁ (op'.result V₂) := fun p hp => by
  have h2 : Proc.devRef .tc p.2 ∉ op'.writes := by
    rw [hw', Finset.mem_singleton]
    exact devRef_ne_of_ne fun e => hy' (e ▸ List.mem_map_of_mem (f := Prod.snd) hp)
  rw [op'.result_of_not_mem V₂ h2]
  exact h p hp

end Agree

/-! ## Two lines in lockstep -/

/-- From valuations agreeing on `P`, after `ops` on one side and `ops'` on the other the valuations agree on `Q`. -/
def Sim (P : List (Ref sig₁ .tc × Ref sig₂ .tc)) (ops : List (HloOp τ sig₁ Val)) (ops' : List (HloOp τ sig₂ Val))
    (Q : List (Ref sig₁ .tc × Ref sig₂ .tc)) : Prop :=
  ∀ (V₁ : Valuation τ sig₁ Val) (V₂ : Valuation τ sig₂ Val), Agree P V₁ V₂ → Agree Q (after ops V₁) (after ops' V₂)

namespace Sim

variable {P P' Q : List (Ref sig₁ .tc × Ref sig₂ .tc)} {ops l₁ l₂ : List (HloOp τ sig₁ Val)} {ops' l₁' l₂' : List (HloOp τ sig₂ Val)}

/-- Both lines done: keep the pairs wanted. -/
theorem done (hQ : Q ⊆ P) : Sim (τ := τ) (Val := Val) P [] [] Q := fun _ _ h => h.mono hQ

/-- One operation on each side, then the rest. -/
theorem step {op : HloOp τ sig₁ Val} {op' : HloOp τ sig₂ Val}
    (hstep : ∀ (V₁ : Valuation τ sig₁ Val) (V₂ : Valuation τ sig₂ Val), Agree P V₁ V₂ → Agree P' (op.result V₁) (op'.result V₂))
    (k : Sim P' ops ops' Q) : Sim P (op :: ops) (op' :: ops') Q := fun V₁ V₂ h => k _ _ (hstep V₁ V₂ h)

/-- An operation on the first side with no counterpart, writing a buffer no listed pair names. -/
theorem skipL {op : HloOp τ sig₁ Val} {y : Ref sig₁ .tc} (hw : op.writes = {Proc.devRef .tc y}) (hy : y ∉ P.map Prod.fst)
    (k : Sim P ops ops' Q) : Sim P (op :: ops) ops' Q := fun V₁ V₂ h => k _ _ (h.writeL hw hy)

/-- An operation on the second side with no counterpart. -/
theorem skipR {op' : HloOp τ sig₂ Val} {y' : Ref sig₂ .tc} (hw' : op'.writes = {Proc.devRef .tc y'}) (hy' : y' ∉ P.map Prod.snd)
    (k : Sim P ops ops' Q) : Sim P ops (op' :: ops') Q := fun V₁ V₂ h => k _ _ (h.writeR hw' hy')

private theorem after_append' {sig : RefSig} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append' l₁ l₂]

/-- Two stretches in a row. -/
theorem append (h₁ : Sim P l₁ l₁' P') (h₂ : Sim P' l₂ l₂' Q) : Sim P (l₁ ++ l₂) (l₁' ++ l₂') Q := fun V₁ V₂ h => by
  rw [after_append', after_append']
  exact h₂ _ _ (h₁ _ _ h)

/-- A first stretch, then the flattening of the others. -/
theorem flatten_cons {L : List (List (HloOp τ sig₁ Val))} {L' : List (List (HloOp τ sig₂ Val))}
    (h₁ : Sim P l₁ l₁' P') (h₂ : Sim P' L.flatten L'.flatten Q) : Sim P (l₁ :: L).flatten (l₁' :: L').flatten Q := by
  rw [List.flatten_cons, List.flatten_cons]
  exact h₁.append h₂

/-- The pairs kept may be dropped afterwards. -/
theorem mono {Q' : List (Ref sig₁ .tc × Ref sig₂ .tc)} (h : Sim P ops ops' Q) (hQ : Q' ⊆ Q) : Sim P ops ops' Q' :=
  fun V₁ V₂ hP => (h V₁ V₂ hP).mono hQ

/-- What the two lines leave at a pair kept. -/
theorem get (h : Sim P ops ops' Q) {V₁ : Valuation τ sig₁ Val} {V₂ : Valuation τ sig₂ Val} (hP : Agree P V₁ V₂)
    {a : Ref sig₁ .tc} {a' : Ref sig₂ .tc} (hin : (a, a') ∈ Q) :
    HEq (after ops V₁ (Proc.devRef .tc a)) (after ops' V₂ (Proc.devRef .tc a')) := (h V₁ V₂ hP).get hin

/-! ### One rule per builder -/

section Builders

variable {x a b c y : Ref sig₁ .tc} {x' a' b' c' y' : Ref sig₂ .tc}

/-- `%y = ‹op›` on both sides. -/
theorem nullary {v : y.ty.Contents Val} {v' : y'.ty.Contents Val} {hy hy'}
    (hv : HEq v v') (hfy : y ∉ P.map Prod.fst) (hfy' : y' ∉ P.map Prod.snd)
    (k : Sim ((y, y') :: P) ops ops' Q) :
    Sim P (StableHlo.nullary (τ := τ) y v hy :: ops) (StableHlo.nullary (τ := τ) y' v' hy' :: ops') Q :=
  step (fun V₁ V₂ h => h.write rfl rfl hfy hfy' (by rw [nullary_result, nullary_result]; exact hv)) k

/-- `%y = ‹op› %x` on both sides. -/
theorem unary {f : x.ty.Contents Val → y.ty.Contents Val} {f' : x'.ty.Contents Val → y'.ty.Contents Val} {hx hy hx' hy'}
    (hin : (x, x') ∈ P) (htx : x.ty = x'.ty) (hty : y.ty = y'.ty) (hf : HEq f f')
    (hfy : y ∉ P.map Prod.fst) (hfy' : y' ∉ P.map Prod.snd)
    (k : Sim ((y, y') :: P) ops ops' Q) :
    Sim P (StableHlo.unary (τ := τ) x y f hx hy :: ops) (StableHlo.unary (τ := τ) x' y' f' hx' hy' :: ops') Q :=
  step (fun V₁ V₂ h => h.write rfl rfl hfy hfy' (by
    rw [unary_result, unary_result]
    exact heq_app (congrArg (BufTy.Contents Val) htx) (congrArg (BufTy.Contents Val) hty) hf (h.get hin))) k

/-- `%y = ‹op› %a, %b` on both sides. -/
theorem binary {f : a.ty.Contents Val → b.ty.Contents Val → y.ty.Contents Val}
    {f' : a'.ty.Contents Val → b'.ty.Contents Val → y'.ty.Contents Val} {ha hb hy ha' hb' hy'}
    (hina : (a, a') ∈ P) (hinb : (b, b') ∈ P) (hta : a.ty = a'.ty) (htb : b.ty = b'.ty) (hty : y.ty = y'.ty) (hf : HEq f f')
    (hfy : y ∉ P.map Prod.fst) (hfy' : y' ∉ P.map Prod.snd)
    (k : Sim ((y, y') :: P) ops ops' Q) :
    Sim P (StableHlo.binary (τ := τ) a b y f ha hb hy :: ops) (StableHlo.binary (τ := τ) a' b' y' f' ha' hb' hy' :: ops') Q :=
  step (fun V₁ V₂ h => h.write rfl rfl hfy hfy' (by
    rw [binary_result, binary_result]
    have hB := congrArg (BufTy.Contents Val) htb
    have hY := congrArg (BufTy.Contents Val) hty
    exact heq_app hB hY
      (heq_app (congrArg (BufTy.Contents Val) hta) (by rw [hB, hY]) hf (h.get hina)) (h.get hinb))) k

/-- `%y = ‹op› %c, %a, %b` on both sides. -/
theorem ternary {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    (hinc : (c, c') ∈ P) (hina : (a, a') ∈ P) (hinb : (b, b') ∈ P)
    (htc : c.ty = c'.ty) (hta : a.ty = a'.ty) (htb : b.ty = b'.ty) (hty : y.ty = y'.ty) (hf : HEq f f')
    (hfy : y ∉ P.map Prod.fst) (hfy' : y' ∉ P.map Prod.snd)
    (k : Sim ((y, y') :: P) ops ops' Q) :
    Sim P (StableHlo.ternary (τ := τ) c a b y f hc ha hb hy :: ops) (StableHlo.ternary (τ := τ) c' a' b' y' f' hc' ha' hb' hy' :: ops') Q :=
  step (fun V₁ V₂ h => h.write rfl rfl hfy hfy' (by
    rw [ternary_result, ternary_result]
    have hA := congrArg (BufTy.Contents Val) hta
    have hB := congrArg (BufTy.Contents Val) htb
    have hY := congrArg (BufTy.Contents Val) hty
    exact heq_app hB hY
      (heq_app hA (by rw [hB, hY])
        (heq_app (congrArg (BufTy.Contents Val) htc) (by rw [hA, hB, hY]) hf (h.get hinc)) (h.get hina)) (h.get hinb))) k

/-- `%y = ‹op› %x₀, …, %xₙ₋₁` on both sides. -/
theorem nary {n : Nat} {xs : Fin n → Ref sig₁ .tc} {xs' : Fin n → Ref sig₂ .tc}
    {f : ((k : Fin n) → (xs k).ty.Contents Val) → y.ty.Contents Val}
    {f' : ((k : Fin n) → (xs' k).ty.Contents Val) → y'.ty.Contents Val} {hxs hy hxs' hy'}
    (hin : ∀ k, (xs k, xs' k) ∈ P) (htx : ∀ k, (xs k).ty = (xs' k).ty) (hty : y.ty = y'.ty) (hf : HEq f f')
    (hfy : y ∉ P.map Prod.fst) (hfy' : y' ∉ P.map Prod.snd)
    (k : Sim ((y, y') :: P) ops ops' Q) :
    Sim P (StableHlo.nary (τ := τ) xs y f hxs hy :: ops) (StableHlo.nary (τ := τ) xs' y' f' hxs' hy' :: ops') Q :=
  step (fun V₁ V₂ h => h.write rfl rfl hfy hfy' (by
    rw [nary_result, nary_result]
    exact heq_app_pi (fun k => congrArg (BufTy.Contents Val) (htx k)) (congrArg (BufTy.Contents Val) hty) hf
      (fun k => h.get (hin k)))) k

/-- `%y = ‹op› %x₀, %x₁, %x₂, %x₃` on both sides, the four operands a literal family: the two functions are compared at
    operands given one by one. -/
theorem nary4 {x0 x1 x2 x3 : Ref sig₁ .tc} {x0' x1' x2' x3' : Ref sig₂ .tc}
    {f : ((k : Fin 4) → ((![x0, x1, x2, x3] : Fin 4 → Ref sig₁ .tc) k).ty.Contents Val) → y.ty.Contents Val}
    {f' : ((k : Fin 4) → ((![x0', x1', x2', x3'] : Fin 4 → Ref sig₂ .tc) k).ty.Contents Val) → y'.ty.Contents Val} {hxs hy hxs' hy'}
    (hin0 : (x0, x0') ∈ P) (hin1 : (x1, x1') ∈ P) (hin2 : (x2, x2') ∈ P) (hin3 : (x3, x3') ∈ P)
    (hf : ∀ (u0 : x0.ty.Contents Val) (u0' : x0'.ty.Contents Val) (u1 : x1.ty.Contents Val) (u1' : x1'.ty.Contents Val)
        (u2 : x2.ty.Contents Val) (u2' : x2'.ty.Contents Val) (u3 : x3.ty.Contents Val) (u3' : x3'.ty.Contents Val),
        HEq u0 u0' → HEq u1 u1' → HEq u2 u2' → HEq u3 u3' →
        HEq (f (Fin.cons u0 (Fin.cons u1 (Fin.cons u2 (Fin.cons u3 (fun i => i.elim0))))))
          (f' (Fin.cons u0' (Fin.cons u1' (Fin.cons u2' (Fin.cons u3' (fun i => i.elim0)))))))
    (hfy : y ∉ P.map Prod.fst) (hfy' : y' ∉ P.map Prod.snd)
    (k : Sim ((y, y') :: P) ops ops' Q) :
    Sim P (StableHlo.nary (τ := τ) ![x0, x1, x2, x3] y f hxs hy :: ops) (StableHlo.nary (τ := τ) ![x0', x1', x2', x3'] y' f' hxs' hy' :: ops') Q :=
  step (fun V₁ V₂ h => h.write rfl rfl hfy hfy' (by
    rw [nary4_result, nary4_result]
    exact hf _ _ _ _ _ _ _ _ (h.get hin0) (h.get hin1) (h.get hin2) (h.get hin3))) k

/-- `%y = stablehlo.reshape %x` on both sides. -/
theorem reshape {he hn hx hy he' hn' hx' hy'}
    (hin : (x, x') ∈ P) (htx : x.ty = x'.ty) (hty : y.ty = y'.ty)
    (hfy : y ∉ P.map Prod.fst) (hfy' : y' ∉ P.map Prod.snd)
    (k : Sim ((y, y') :: P) ops ops' Q) :
    Sim P (StableHlo.reshape (τ := τ) (Val := Val) x y he hn hx hy :: ops) (StableHlo.reshape (τ := τ) (Val := Val) x' y' he' hn' hx' hy' :: ops') Q :=
  step (fun V₁ V₂ h => h.write rfl rfl hfy hfy' (by
    rw [reshape_result, reshape_result]
    exact heq_reshape htx hty he he' hn hn' (h.get hin))) k

end Builders

end Sim

end Idealize.ShloMosaic.StableHlo
-- ==== Proof.TailSim.lean ====
import proofs.«409254_j45569603010859_3_alg».proof.Proof.Gen.KernelIdeal.Launch
import proofs.«409254_j45569603010859_3_alg».proof.Proof.RefRun
import proofs.«409254_j45569603010859_3_alg».proof.Proof.LibAgree
import Idealize.ShloMosaic.Lib.ValueIdx
import Idealize.ShloMosaic.Lib.Pipeline.Value

/-!
# The two programs' host operations, side by side

After its region the first program adds its two partial arrays (one per half of the rows) and flattens the counts: five
operations. The second program builds the same two arrays by two scatters: ten operations. From there on both apply the
SAME forty-two operations — the mean per class, two normalisations, the moving average, two selections — to buffers
paired by position, so the two results agree as soon as the sums and the counts going in agree; none of the forty-two
is ever opened.

The forty-two are walked in six stretches of seven. At each operation four things are checked: the operands' pairs are
among the pairs already known to agree; paired buffers have the same type (the two signatures give one literal type);
the two functions are the same (the two programs spell one literal shape by two names, and the shape facts they pass
are propositions, so the two terms are equal by unfolding); and the result buffers are named by no pair so far (every
buffer is written once). Between stretches the pairs no later operation reads are dropped.

The prefix lemmas unfold the first five (ten) operations into a literal list and read each operation's result at
the buffer asked for.
-/

noncomputable section

namespace Cert.TailSim

open Idealize.ShloMosaic Idealize.ShloMosaic.StableHlo Idealize.ShloMosaic.ValueIdx

variable {F : FTy → Type} [FloatOps F]

/-- The first program's host operations after its region, as one list. -/
abbrev opsK : List (HloOp Cert.KernelIdeal.τ Cert.KernelIdeal.sig (Elt F)) :=
  List.flatten [Cert.KernelIdeal.Gen.hostOps1, Cert.KernelIdeal.Gen.hostOps1_1, Cert.KernelIdeal.Gen.hostOps1_2,
    Cert.KernelIdeal.Gen.hostOps1_3]

/-- Its first five: the two partial arrays added, the counts flattened. -/
def preK : List (HloOp Cert.KernelIdeal.τ Cert.KernelIdeal.sig (Elt F)) := (opsK (F := F)).take 5
/-- The forty-two after them. -/
def tailK : List (HloOp Cert.KernelIdeal.τ Cert.KernelIdeal.sig (Elt F)) := (opsK (F := F)).drop 5
/-- The second program's first ten operations: the two scatters. -/
def preR : List (HloOp Cert.ReferenceIdeal.τ Cert.ReferenceIdeal.sig (Elt F)) := (Cert.ReferenceIdeal.Value.ops (F := F)).take 10
/-- The forty-two after them. -/
def tailR : List (HloOp Cert.ReferenceIdeal.τ Cert.ReferenceIdeal.sig (Elt F)) := (Cert.ReferenceIdeal.Value.ops (F := F)).drop 10

/-- A column of shape `[a, 1]` flattened to `[a]` reads, at `i`, the column's entry `(i, 0)`: the two indices have the
    same row-major position `i`. -/
private theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

theorem opsK_eq : (opsK (F := F)) = preK ++ tailK := (List.take_append_drop 5 _).symm
theorem opsR_eq : (Cert.ReferenceIdeal.Value.ops (F := F)) = preR ++ tailR := (List.take_append_drop 10 _).symm

/-- A stretch of each line cut after its first `n` (resp. `m`) operations: the first parts in lockstep, then the rest. -/
private theorem sim_split {sig₁ sig₂ : RefSig} {τ : Topo} {Val : EltTy → Type}
    {P P' Q : List (Ref sig₁ .tc × Ref sig₂ .tc)} {l : List (HloOp τ sig₁ Val)} {l' : List (HloOp τ sig₂ Val)} (n m : ℕ)
    (h₁ : Sim P (l.take n) (l'.take m) P') (h₂ : Sim P' (l.drop n) (l'.drop m) Q) : Sim P l l' Q := by
  have h := h₁.append h₂
  rwa [List.take_append_drop, List.take_append_drop] at h

/-- Operations 1 to 7 of the forty-two. From the counts: the flag `count > 0`, and `max(count, 1)` as a column. -/
private theorem sim_chunk1 :
    Sim (τ := Cert.KernelIdeal.τ) (Val := Elt F)
      [(Cert.KernelIdeal.main_v3, Cert.ReferenceIdeal.main_v6),
       (Cert.KernelIdeal.main_v1, Cert.ReferenceIdeal.main_v2),
       (Cert.KernelIdeal.main_arg2, Cert.ReferenceIdeal.main_arg2),
       (Cert.KernelIdeal.main_arg1, Cert.ReferenceIdeal.main_arg1)]
      (List.take 7 (tailK (F := F))) (List.take 7 (tailR (F := F)))
      [(Cert.KernelIdeal.main_v8, Cert.ReferenceIdeal.main_v11),
       (Cert.KernelIdeal.main_v5, Cert.ReferenceIdeal.main_v8),
       (Cert.KernelIdeal.main_v1, Cert.ReferenceIdeal.main_v2),
       (Cert.KernelIdeal.main_arg2, Cert.ReferenceIdeal.main_arg2),
       (Cert.KernelIdeal.main_arg1, Cert.ReferenceIdeal.main_arg1)] := by
  -- the constant 0 (cst_1, cst_2)
  refine Sim.nullary HEq.rfl (by decide) (by decide) ?_
  -- 0 for every class (v4, v7)
  refine Sim.unary (.head _) rfl rfl HEq.rfl (by decide) (by decide) ?_
  -- the flag of a class with at least one row: count > 0 (v5, v8)
  refine Sim.binary (.tail _ (.tail _ (.head _))) (.head _) rfl rfl rfl HEq.rfl (by decide) (by decide) ?_
  -- the constant 1 (cst_2, cst_3)
  refine Sim.nullary HEq.rfl (by decide) (by decide) ?_
  -- 1 for every class (v6, v9)
  refine Sim.unary (.head _) rfl rfl HEq.rfl (by decide) (by decide) ?_
  -- max(count, 1) (v7, v10)
  refine Sim.binary (.tail _ (.tail _ (.tail _ (.tail _ (.tail _ (.head _)))))) (.head _) rfl rfl rfl HEq.rfl (by decide) (by decide) ?_
  -- as a column (v8, v11)
  refine Sim.unary (.head _) rfl rfl HEq.rfl (by decide) (by decide) ?_
  -- both stretches are done: keep the pairs a later operation still reads
  exact Sim.done (by decide)

/-- Operations 8 to 14 of the forty-two. The mean per class (the sums divided by `max(count, 1)`), the sum of its
    squares along each row, and the square root. -/
private theorem sim_chunk2 :
    Sim (τ := Cert.KernelIdeal.τ) (Val := Elt F)
      [(Cert.KernelIdeal.main_v8, Cert.ReferenceIdeal.main_v11),
       (Cert.KernelIdeal.main_v5, Cert.ReferenceIdeal.main_v8),
       (Cert.KernelIdeal.main_v1, Cert.ReferenceIdeal.main_v2),
       (Cert.KernelIdeal.main_arg2, Cert.ReferenceIdeal.main_arg2),
       (Cert.KernelIdeal.main_arg1, Cert.ReferenceIdeal.main_arg1)]
      (List.take 7 (List.drop 7 (tailK (F := F)))) (List.take 7 (List.drop 7 (tailR (F := F))))
      [(Cert.KernelIdeal.main_v14, Cert.ReferenceIdeal.main_v17),
       (Cert.KernelIdeal.main_v10, Cert.ReferenceIdeal.main_v13),
       (Cert.KernelIdeal.main_v5, Cert.ReferenceIdeal.main_v8),
       (Cert.KernelIdeal.main_arg2, Cert.ReferenceIdeal.main_arg2),
       (Cert.KernelIdeal.main_arg1, Cert.ReferenceIdeal.main_arg1)] := by
  -- repeated along the 256 columns (v9, v12)
  refine Sim.unary (.head _) rfl rfl HEq.rfl (by decide) (by decide) ?_
  -- the mean of the class: sum / max(count, 1) (v10, v13)
  refine Sim.binary (.tail _ (.tail _ (.tail _ (.head _)))) (.head _) rfl rfl rfl HEq.rfl (by decide) (by decide) ?_
  -- its square, entry by entry (v11, v14)
  refine Sim.binary (.head _) (.head _) rfl rfl rfl HEq.rfl (by decide) (by decide) ?_
  -- the constant 0 (cst_3, cst_4)
  refine Sim.nullary HEq.rfl (by decide) (by decide) ?_
  -- the squares added up along each row (v12, v15)
  refine Sim.binary (.tail _ (.head _)) (.head _) rfl rfl rfl HEq.rfl (by decide) (by decide) ?_
  -- as a column (v13, v16)
  refine Sim.unary (.head _) rfl rfl HEq.rfl (by decide) (by decide) ?_
  -- the row's norm: the square root (v14, v17)
  refine Sim.unary (.head _) rfl rfl HEq.rfl (by decide) (by decide) ?_
  -- both stretches are done: keep the pairs a later operation still reads
  exact Sim.done (by decide)

/-- Operations 15 to 21 of the forty-two. The norm kept away from zero, the mean divided by it, and the old
    prototypes' weight at every entry. -/
private theorem sim_chunk3 :
    Sim (τ := Cert.KernelIdeal.τ) (Val := Elt F)
      [(Cert.KernelIdeal.main_v14, Cert.ReferenceIdeal.main_v17),
       (Cert.KernelIdeal.main_v10, Cert.ReferenceIdeal.main_v13),
       (Cert.KernelIdeal.main_v5, Cert.ReferenceIdeal.main_v8),
       (Cert.KernelIdeal.main_arg2, Cert.ReferenceIdeal.main_arg2),
       (Cert.KernelIdeal.main_arg1, Cert.ReferenceIdeal.main_arg1)]
      (List.take 7 (List.drop 7 (List.drop 7 (tailK (F := F))))) (List.take 7 (List.drop 7 (List.drop 7 (tailR (F := F)))))
      [(Cert.KernelIdeal.main_v19, Cert.ReferenceIdeal.main_v22),
       (Cert.KernelIdeal.main_v18, Cert.ReferenceIdeal.main_v21),
       (Cert.KernelIdeal.main_v5, Cert.ReferenceIdeal.main_v8),
       (Cert.KernelIdeal.main_arg2, Cert.ReferenceIdeal.main_arg2),
       (Cert.KernelIdeal.main_arg1, Cert.ReferenceIdeal.main_arg1)] := by
  -- the small constant (word 2B8CBCCC) (cst_4, cst_5)
  refine Sim.nullary HEq.rfl (by decide) (by decide) ?_
  -- for every class, as a column (v15, v18)
  refine Sim.unary (.head _) rfl rfl HEq.rfl (by decide) (by decide) ?_
  -- max(norm, small constant) (v16, v19)
  refine Sim.binary (.tail _ (.tail _ (.head _))) (.head _) rfl rfl rfl HEq.rfl (by decide) (by decide) ?_
  -- repeated along the columns (v17, v20)
  refine Sim.unary (.head _) rfl rfl HEq.rfl (by decide) (by decide) ?_
  -- the normalised mean: mean / that (v18, v21)
  refine Sim.binary (.tail _ (.tail _ (.tail _ (.tail _ (.tail _ (.head _)))))) (.head _) rfl rfl rfl HEq.rfl (by decide) (by decide) ?_
  -- the weight of the old prototypes (word 3F7EB852) (cst_5, cst_6)
  refine Sim.nullary HEq.rfl (by decide) (by decide) ?_
  -- at every entry (v19, v22)
  refine Sim.unary (.head _) rfl rfl HEq.rfl (by decide) (by decide) ?_
  -- both stretches are done: keep the pairs a later operation still reads
  exact Sim.done (by decide)

/-- Operations 22 to 28 of the forty-two. The moving average (old prototypes and normalised mean, each times its
    weight, added), its squares, and the zero the next sum starts from. -/
private theorem sim_chunk4 :
    Sim (τ := Cert.KernelIdeal.τ) (Val := Elt F)
      [(Cert.KernelIdeal.main_v19, Cert.ReferenceIdeal.main_v22),
       (Cert.KernelIdeal.main_v18, Cert.ReferenceIdeal.main_v21),
       (Cert.KernelIdeal.main_v5, Cert.ReferenceIdeal.main_v8),
       (Cert.KernelIdeal.main_arg2, Cert.ReferenceIdeal.main_arg2),
       (Cert.KernelIdeal.main_arg1, Cert.ReferenceIdeal.main_arg1)]
      (List.take 7 (List.drop 7 (List.drop 7 (List.drop 7 (tailK (F := F)))))) (List.take 7 (List.drop 7 (List.drop 7 (List.drop 7 (tailR (F := F))))))
      [(Cert.KernelIdeal.main_cst_7, Cert.ReferenceIdeal.main_cst_8),
       (Cert.KernelIdeal.main_v24, Cert.ReferenceIdeal.main_v27),
       (Cert.KernelIdeal.main_v23, Cert.ReferenceIdeal.main_v26),
       (Cert.KernelIdeal.main_v18, Cert.ReferenceIdeal.main_v21),
       (Cert.KernelIdeal.main_v5, Cert.ReferenceIdeal.main_v8),
       (Cert.KernelIdeal.main_arg2, Cert.ReferenceIdeal.main_arg2),
       (Cert.KernelIdeal.main_arg1, Cert.ReferenceIdeal.main_arg1)] := by
  -- weight · prototypes (v20, v23)
  refine Sim.binary (.head _) (.tail _ (.tail _ (.tail _ (.tail _ (.head _))))) rfl rfl rfl HEq.rfl (by decide) (by decide) ?_
  -- the weight of the new means (word 3BA3D70A) (cst_6, cst_7)
  refine Sim.nullary HEq.rfl (by decide) (by decide) ?_
  -- at every entry (v21, v24)
  refine Sim.unary (.head _) rfl rfl HEq.rfl (by decide) (by decide) ?_
  -- weight · normalised mean (v22, v25)
  refine Sim.binary (.head _) (.tail _ (.tail _ (.tail _ (.tail _ (.head _))))) rfl rfl rfl HEq.rfl (by decide) (by decide) ?_
  -- the moving average: the two products added (v23, v26)
  refine Sim.binary (.tail _ (.tail _ (.tail _ (.head _)))) (.head _) rfl rfl rfl HEq.rfl (by decide) (by decide) ?_
  -- its square, entry by entry (v24, v27)
  refine Sim.binary (.head _) (.head _) rfl rfl rfl HEq.rfl (by decide) (by decide) ?_
  -- the constant 0 (cst_7, cst_8)
  refine Sim.nullary HEq.rfl (by decide) (by decide) ?_
  -- both stretches are done: keep the pairs a later operation still reads
  exact Sim.done (by decide)

/-- Operations 29 to 35 of the forty-two. The moving average's norm per row, kept away from zero, along the columns. -/
private theorem sim_chunk5 :
    Sim (τ := Cert.KernelIdeal.τ) (Val := Elt F)
      [(Cert.KernelIdeal.main_cst_7, Cert.ReferenceIdeal.main_cst_8),
       (Cert.KernelIdeal.main_v24, Cert.ReferenceIdeal.main_v27),
       (Cert.KernelIdeal.main_v23, Cert.ReferenceIdeal.main_v26),
       (Cert.KernelIdeal.main_v18, Cert.ReferenceIdeal.main_v21),
       (Cert.KernelIdeal.main_v5, Cert.ReferenceIdeal.main_v8),
       (Cert.KernelIdeal.main_arg2, Cert.ReferenceIdeal.main_arg2),
       (Cert.KernelIdeal.main_arg1, Cert.ReferenceIdeal.main_arg1)]
      (List.take 7 (List.drop 7 (List.drop 7 (List.drop 7 (List.drop 7 (tailK (F := F))))))) (List.take 7 (List.drop 7 (List.drop 7 (List.drop 7 (List.drop 7 (tailR (F := F)))))))
      [(Cert.KernelIdeal.main_v30, Cert.ReferenceIdeal.main_v33),
       (Cert.KernelIdeal.main_v23, Cert.ReferenceIdeal.main_v26),
       (Cert.KernelIdeal.main_v18, Cert.ReferenceIdeal.main_v21),
       (Cert.KernelIdeal.main_v5, Cert.ReferenceIdeal.main_v8),
       (Cert.KernelIdeal.main_arg2, Cert.ReferenceIdeal.main_arg2),
       (Cert.KernelIdeal.main_arg1, Cert.ReferenceIdeal.main_arg1)] := by
  -- the squares added up along each row (v25, v28)
  refine Sim.binary (.tail _ (.head _)) (.head _) rfl rfl rfl HEq.rfl (by decide) (by decide) ?_
  -- as a column (v26, v29)
  refine Sim.unary (.head _) rfl rfl HEq.rfl (by decide) (by decide) ?_
  -- the row's norm: the square root (v27, v30)
  refine Sim.unary (.head _) rfl rfl HEq.rfl (by decide) (by decide) ?_
  -- the small constant again (cst_8, cst_9)
  refine Sim.nullary HEq.rfl (by decide) (by decide) ?_
  -- for every class, as a column (v28, v31)
  refine Sim.unary (.head _) rfl rfl HEq.rfl (by decide) (by decide) ?_
  -- max(norm, small constant) (v29, v32)
  refine Sim.binary (.tail _ (.tail _ (.head _))) (.head _) rfl rfl rfl HEq.rfl (by decide) (by decide) ?_
  -- repeated along the columns (v30, v33)
  refine Sim.unary (.head _) rfl rfl HEq.rfl (by decide) (by decide) ?_
  -- both stretches are done: keep the pairs a later operation still reads
  exact Sim.done (by decide)

/-- Operations 36 to 42 of the forty-two. The normalised moving average and the two choices: by the given flags
    against the normalised mean, then by `count > 0` against the old prototypes. -/
private theorem sim_chunk6 :
    Sim (τ := Cert.KernelIdeal.τ) (Val := Elt F)
      [(Cert.KernelIdeal.main_v30, Cert.ReferenceIdeal.main_v33),
       (Cert.KernelIdeal.main_v23, Cert.ReferenceIdeal.main_v26),
       (Cert.KernelIdeal.main_v18, Cert.ReferenceIdeal.main_v21),
       (Cert.KernelIdeal.main_v5, Cert.ReferenceIdeal.main_v8),
       (Cert.KernelIdeal.main_arg2, Cert.ReferenceIdeal.main_arg2),
       (Cert.KernelIdeal.main_arg1, Cert.ReferenceIdeal.main_arg1)]
      (List.drop 7 (List.drop 7 (List.drop 7 (List.drop 7 (List.drop 7 (tailK (F := F))))))) (List.drop 7 (List.drop 7 (List.drop 7 (List.drop 7 (List.drop 7 (tailR (F := F)))))))
      [(Cert.KernelIdeal.main_v35, Cert.ReferenceIdeal.main_v38)] := by
  -- the normalised moving average (v31, v34)
  refine Sim.binary (.tail _ (.head _)) (.head _) rfl rfl rfl HEq.rfl (by decide) (by decide) ?_
  -- the given flags, as a column (v32, v35)
  refine Sim.unary (.tail _ (.tail _ (.tail _ (.tail _ (.tail _ (.head _)))))) rfl rfl HEq.rfl (by decide) (by decide) ?_
  -- repeated along the columns (call0_v0, call0_v0)
  refine Sim.unary (.head _) rfl rfl HEq.rfl (by decide) (by decide) ?_
  -- where flagged the normalised moving average, elsewhere the normalised mean (v33, v36)
  refine Sim.ternary (.head _) (.tail _ (.tail _ (.head _))) (.tail _ (.tail _ (.tail _ (.tail _ (.tail _ (.head _)))))) rfl rfl rfl rfl HEq.rfl (by decide) (by decide) ?_
  -- the flag count > 0, as a column (v34, v37)
  refine Sim.unary (.tail _ (.tail _ (.tail _ (.tail _ (.tail _ (.tail _ (.tail _ (.head _)))))))) rfl rfl HEq.rfl (by decide) (by decide) ?_
  -- repeated along the columns (call1_v0, call1_v0)
  refine Sim.unary (.head _) rfl rfl HEq.rfl (by decide) (by decide) ?_
  -- for a class with rows that choice, for an empty class the old prototypes (v35, v38)
  refine Sim.ternary (.head _) (.tail _ (.tail _ (.head _))) (.tail _ (.tail _ (.tail _ (.tail _ (.tail _ (.tail _ (.tail _ (.tail _ (.tail _ (.tail _ (.tail _ (.head _)))))))))))) rfl rfl rfl rfl HEq.rfl (by decide) (by decide) ?_
  -- both lines are done: keep the result
  exact Sim.done (by decide)

/-- The forty-two shared operations in lockstep: from valuations that agree on the sums, the counts, the prototypes and
    the flags, the two results agree. -/
theorem tail_sim :
    Sim (τ := Cert.KernelIdeal.τ) (Val := Elt F)
      [(Cert.KernelIdeal.main_v3, Cert.ReferenceIdeal.main_v6), (Cert.KernelIdeal.main_v1, Cert.ReferenceIdeal.main_v2),
       (Cert.KernelIdeal.main_arg2, Cert.ReferenceIdeal.main_arg2), (Cert.KernelIdeal.main_arg1, Cert.ReferenceIdeal.main_arg1)]
      (tailK (F := F)) (tailR (F := F))
      [(Cert.KernelIdeal.main_v35, Cert.ReferenceIdeal.main_v38)] := by
  refine sim_split 7 7 sim_chunk1 ?_
  refine sim_split 7 7 sim_chunk2 ?_
  refine sim_split 7 7 sim_chunk3 ?_
  refine sim_split 7 7 sim_chunk4 ?_
  refine sim_split 7 7 sim_chunk5 ?_
  exact sim_chunk6

/-- After the first program's five operations the sums buffer holds the two partial arrays added along their first axis. -/
theorem preK_sums (V : Valuation Cert.KernelIdeal.τ Cert.KernelIdeal.sig (Elt F)) :
    after (preK (F := F)) V (Proc.devRef .tc Cert.KernelIdeal.main_v1)
      = Host.reduceAdd (V (Proc.devRef .tc Cert.KernelIdeal.main_v0_0)) (constant Cert.KernelIdeal.S_ .f32 0x00000000#32)
          Cert.KernelIdeal.Facts₀.reducesTo_S2x1000x256_S1000x256_d0 Cert.KernelIdeal.Facts₀.h_S_ := by
  -- the five operations one by one, each one's result read at this buffer
  show after (_ :: _ :: _ :: _ :: _ :: []) V _ = _
  after_results

/-- And the counts buffer, entry `c`, holds the two partial count columns added, at `(c, 0)`. -/
theorem preK_counts_apply (V : Valuation Cert.KernelIdeal.τ Cert.KernelIdeal.sig (Elt F)) (c : Fin 1000) :
    (after (preK (F := F)) V (Proc.devRef .tc Cert.KernelIdeal.main_v3) : Cert.KernelIdeal.S1000.Idx → F .f32) (ix1 c)
      = (Host.reduceAdd (V (Proc.devRef .tc Cert.KernelIdeal.main_v0_1)) (constant Cert.KernelIdeal.S_ .f32 0x00000000#32)
          Cert.KernelIdeal.Facts₀.reducesTo_S2x1000x1_S1000x1_d0 Cert.KernelIdeal.Facts₀.h_S_ : Cert.KernelIdeal.S1000x1.Idx → F .f32)
          (ix2 c (0 : Fin 1)) := by
  -- the counts buffer is the flattening of the added columns; entry `c` of it is entry `(c, 0)` of the column
  show (after (_ :: _ :: _ :: _ :: _ :: []) V (Proc.devRef .tc Cert.KernelIdeal.main_v3) : Cert.KernelIdeal.S1000.Idx → F .f32) _ = _
  after_results
  exact shapeCast_a1_a_apply _ _ c

/-- The five operations write neither the prototypes nor the flags. -/
theorem preK_arg1 (V : Valuation Cert.KernelIdeal.τ Cert.KernelIdeal.sig (Elt F)) :
    after (preK (F := F)) V (Proc.devRef .tc Cert.KernelIdeal.main_arg1) = V (Proc.devRef .tc Cert.KernelIdeal.main_arg1) := by
  -- the five operations one by one, each one's result read at this buffer
  show after (_ :: _ :: _ :: _ :: _ :: []) V _ = _
  after_results
theorem preK_arg2 (V : Valuation Cert.KernelIdeal.τ Cert.KernelIdeal.sig (Elt F)) :
    after (preK (F := F)) V (Proc.devRef .tc Cert.KernelIdeal.main_arg2) = V (Proc.devRef .tc Cert.KernelIdeal.main_arg2) := by
  -- the five operations one by one, each one's result read at this buffer
  show after (_ :: _ :: _ :: _ :: _ :: []) V _ = _
  after_results

/-- After the second program's ten operations the sums buffer holds the rows scattered by label into zeros. -/
theorem preR_sums (V : Valuation Cert.ReferenceIdeal.τ Cert.ReferenceIdeal.sig (Elt F)) :
    after (preR (F := F)) V (Proc.devRef .tc Cert.ReferenceIdeal.main_v2)
      = Host.scatterAdd Cert.ReferenceIdeal.scatter_S1000x256_S131072x1_S131072x256_1_0_0_1
          (broadcastInDim Cert.ReferenceIdeal.S1000x256 ![] Cert.ReferenceIdeal.Facts₀.bcast_S_S1000x256 (constant Cert.ReferenceIdeal.S_ .f32 0x00000000#32))
          (broadcastInDim Cert.ReferenceIdeal.S131072x1 ![0] Cert.ReferenceIdeal.Facts₀.bcast_S131072_S131072x1_0 (V (Proc.devRef .tc Cert.ReferenceIdeal.main_arg3)))
          (V (Proc.devRef .tc Cert.ReferenceIdeal.main_arg0)) := by
  -- the ten operations one by one, each one's result read at this buffer
  show after (_ :: _ :: _ :: _ :: _ :: _ :: _ :: _ :: _ :: _ :: []) V _ = _
  after_results

/-- And the counts buffer holds ones scattered by label into zeros. -/
theorem preR_counts (V : Valuation Cert.ReferenceIdeal.τ Cert.ReferenceIdeal.sig (Elt F)) :
    after (preR (F := F)) V (Proc.devRef .tc Cert.ReferenceIdeal.main_v6)
      = Host.scatterAdd Cert.ReferenceIdeal.scatter_S1000_S131072x1_S131072_n_0_0_1
          (broadcastInDim Cert.ReferenceIdeal.S1000 ![] Cert.ReferenceIdeal.Facts₀.bcast_S_S1000 (constant Cert.ReferenceIdeal.S_ .f32 0x00000000#32))
          (broadcastInDim Cert.ReferenceIdeal.S131072x1 ![0] Cert.ReferenceIdeal.Facts₀.bcast_S131072_S131072x1_0 (V (Proc.devRef .tc Cert.ReferenceIdeal.main_arg3)))
          (broadcastInDim Cert.ReferenceIdeal.S131072 ![] Cert.ReferenceIdeal.Facts₀.bcast_S_S131072 (constant Cert.ReferenceIdeal.S_ .f32 0x3F800000#32)) := by
  -- the ten operations one by one, each one's result read at this buffer
  show after (_ :: _ :: _ :: _ :: _ :: _ :: _ :: _ :: _ :: _ :: []) V _ = _
  after_results

/-- The ten operations write neither the prototypes nor the flags. -/
theorem preR_arg1 (V : Valuation Cert.ReferenceIdeal.τ Cert.ReferenceIdeal.sig (Elt F)) :
    after (preR (F := F)) V (Proc.devRef .tc Cert.ReferenceIdeal.main_arg1) = V (Proc.devRef .tc Cert.ReferenceIdeal.main_arg1) := by
  -- the ten operations one by one, each one's result read at this buffer
  show after (_ :: _ :: _ :: _ :: _ :: _ :: _ :: _ :: _ :: _ :: []) V _ = _
  after_results
theorem preR_arg2 (V : Valuation Cert.ReferenceIdeal.τ Cert.ReferenceIdeal.sig (Elt F)) :
    after (preR (F := F)) V (Proc.devRef .tc Cert.ReferenceIdeal.main_arg2) = V (Proc.devRef .tc Cert.ReferenceIdeal.main_arg2) := by
  -- the ten operations one by one, each one's result read at this buffer
  show after (_ :: _ :: _ :: _ :: _ :: _ :: _ :: _ :: _ :: _ :: []) V _ = _
  after_results

end Cert.TailSim

end
-- ==== Proof.Bridge.lean ====
import proofs.«409254_j45569603010859_3_alg».proof.Proof.KernelValue
import proofs.«409254_j45569603010859_3_alg».proof.Proof.Combine
import proofs.«409254_j45569603010859_3_alg».proof.Proof.RefScatter
import proofs.«409254_j45569603010859_3_alg».proof.Proof.TailSim

/-!
# The two results are one array

The first program's region leaves the two halves' sums and counts; its five host operations add the halves. The second
program's ten host operations scatter the rows and ones by label. Both therefore hold, before the forty-two operations
they share, the per-class sums and counts over all rows — of the same rows and labels, the two memories agreeing on
the arguments — and the prototypes and flags are arguments too. The shared operations then give equal results.
-/

set_option maxRecDepth 16384

noncomputable section

namespace Cert.Bridge

open Idealize.ShloMosaic Idealize.ShloMosaic.StableHlo Idealize.ShloMosaic.ValueIdx Idealize.ShloMosaic.TcCoe
open Idealize.SL.Sem Cert.SegMean Cert.TailSim

theorem after_append {τ : Topo} {sg : RefSig} {Val : EltTy → Type} (l₁ l₂ : List (HloOp τ sg Val)) (V : Valuation τ sg Val) :
    after (l₁ ++ l₂) V = after l₂ (after l₁ V) := by
  induction l₁ generalizing V with
  | nil => rfl
  | cons op l ih => rw [List.cons_append, after_cons, after_cons, ih]

section Kernel

variable (m : (ℓ : Loc Cert.KernelIdeal.nD Cert.KernelIdeal.τ Cert.KernelIdeal.sig) → Buf (Elt Ideal) ℓ) (c : Dev Cert.KernelIdeal.nD)

/-- The first program's buffers as its region leaves them: the two partial arrays written, everything else as launched. -/
def leaves : Valuation Cert.KernelIdeal.τ Cert.KernelIdeal.sig (Elt Ideal) :=
  Pipeline.withArrays (Cert.KernelIdeal.cfgs 0).spec c (Cert.KernelIdeal.Gen.V0 m c)
    fun w => (Cert.KernelIdeal.Gen.dats m 0 c).arrAt w (Cert.KernelIdeal.cfgs 0).N

theorem leaves_sums : leaves m c (Proc.devRef .tc Cert.KernelIdeal.main_v0_0) = Cert.KernelIdeal.SegValue.halfSums m c :=
  (Pipeline.withArrays_arr Cert.KernelIdeal.spec0 Cert.KernelIdeal.Gen.launch0.win.arr_inj c _ _ 2).trans
    (Cert.KernelIdeal.SegValue.final2 m c)

theorem leaves_counts : leaves m c (Proc.devRef .tc Cert.KernelIdeal.main_v0_1) = Cert.KernelIdeal.SegValue.halfCounts m c :=
  (Pipeline.withArrays_arr Cert.KernelIdeal.spec0 Cert.KernelIdeal.Gen.launch0.win.arr_inj c _ _ 3).trans
    (Cert.KernelIdeal.SegValue.final3 m c)

theorem leaves_arg1 : leaves m c (Proc.devRef .tc Cert.KernelIdeal.main_arg1) = m ((c : Thread Cert.KernelIdeal.nD Cert.KernelIdeal.τ).loc Cert.KernelIdeal.main_arg1) :=
  Pipeline.withArrays_of_ne _ c (Cert.KernelIdeal.Gen.V0 m c) _ Cert.KernelIdeal.main_arg1
    (by exact (by decide : ∀ w, Pipeline.arrRef Cert.KernelIdeal.spec0 w ≠ Cert.KernelIdeal.main_arg1))

theorem leaves_arg2 : leaves m c (Proc.devRef .tc Cert.KernelIdeal.main_arg2) = m ((c : Thread Cert.KernelIdeal.nD Cert.KernelIdeal.τ).loc Cert.KernelIdeal.main_arg2) :=
  Pipeline.withArrays_of_ne _ c (Cert.KernelIdeal.Gen.V0 m c) _ Cert.KernelIdeal.main_arg2
    (by exact (by decide : ∀ w, Pipeline.arrRef Cert.KernelIdeal.spec0 w ≠ Cert.KernelIdeal.main_arg2))

/-- After the five operations that add the halves: the per-class sums over all rows, -/
theorem kernel_sums :
    after (preK (F := Ideal)) (leaves m c) (Proc.devRef .tc Cert.KernelIdeal.main_v1)
      = classSum (Cert.KernelIdeal.SegValue.zArr m c) (Cert.KernelIdeal.SegValue.labArr m c) := by
  rw [preK_sums, leaves_sums]
  exact Cert.KernelIdeal.SegValue.combine_sums _ _ _ fun p cl d => rfl

/-- and the per-class counts. -/
theorem kernel_counts :
    (after (preK (F := Ideal)) (leaves m c) (Proc.devRef .tc Cert.KernelIdeal.main_v3) : Scnt.Idx → EReal)
      = classCount (Cert.KernelIdeal.SegValue.labArr m c) := by
  funext j
  obtain ⟨cl, rfl⟩ : ∃ cl : Fin 1000, j = ix1 cl := ⟨j 0, eq_ix1 j⟩
  rw [preK_counts_apply, leaves_counts]
  exact Cert.KernelIdeal.SegValue.combine_counts _ _ (fun p cl => rfl) cl

end Kernel

section Reference

variable (m' : (ℓ : Loc Cert.ReferenceIdeal.nD Cert.ReferenceIdeal.τ Cert.ReferenceIdeal.sig) → Buf (Elt Ideal) ℓ) (c : Dev Cert.ReferenceIdeal.nD)

/-- After the second program's ten operations: the per-class sums over all rows, -/
theorem ref_sums :
    after (preR (F := Ideal)) (launchContents m' c) (Proc.devRef .tc Cert.ReferenceIdeal.main_v2)
      = classSum (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg3)) := by
  rw [preR_sums]
  exact Cert.ReferenceIdeal.SegValue.scatter_sums _ _

/-- and the per-class counts. -/
theorem ref_counts :
    after (preR (F := Ideal)) (launchContents m' c) (Proc.devRef .tc Cert.ReferenceIdeal.main_v6)
      = classCount (m' ((c : Thread Cert.ReferenceIdeal.nD Cert.ReferenceIdeal.τ).loc Cert.ReferenceIdeal.main_arg3)) := by
  rw [preR_counts]
  exact Cert.ReferenceIdeal.SegValue.scatter_counts _

end Reference

section Both

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From memories that agree on the four arguments, what the first program's host operations leave in its result
    buffer, from what its region left, is what the second program's leave in its own. -/
theorem results_agree
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (c : Dev Cert.KernelIdeal.nD) :
    after (Cert.ReferenceIdeal.Value.ops (F := Ideal)) (launchContents m' c) (Proc.devRef .tc Cert.ReferenceIdeal.main_v38)
      = after (opsK (F := Ideal)) (leaves m c) (Proc.devRef .tc Cert.KernelIdeal.main_v35) := by
  obtain ⟨h0, h1, h2, h3⟩ := hagree c
  rw [opsK_eq, opsR_eq, after_append, after_append]
  have hP : Agree (τ := Cert.KernelIdeal.τ)
      [(Cert.KernelIdeal.main_v3, Cert.ReferenceIdeal.main_v6), (Cert.KernelIdeal.main_v1, Cert.ReferenceIdeal.main_v2),
       (Cert.KernelIdeal.main_arg2, Cert.ReferenceIdeal.main_arg2), (Cert.KernelIdeal.main_arg1, Cert.ReferenceIdeal.main_arg1)]
      (after (preK (F := Ideal)) (leaves m c)) (after (preR (F := Ideal)) (launchContents m' c)) := by
    refine Agree.cons (heq_of_eq ?_) (Agree.cons (heq_of_eq ?_) (Agree.cons (heq_of_eq ?_) (Agree.cons (heq_of_eq ?_) Agree.nil)))
    · exact (kernel_counts m c).trans (by rw [ref_counts, h3])
    · exact (kernel_sums m c).trans (by rw [ref_sums, h0, h3])
    · rw [preK_arg2, preR_arg2, leaves_arg2]; exact h2.symm
    · rw [preK_arg1, preR_arg1, leaves_arg1]; exact h1.symm
  exact (eq_of_heq ((tail_sim (F := Ideal)).get hP (List.mem_singleton_self _))).symm

end Both

/-! ## The first program's run, its result named -/

section Run

open Cert.KernelIdeal Cert.KernelIdeal.Gen

variable (m : (ℓ : Loc Cert.KernelIdeal.nD Cert.KernelIdeal.τ Cert.KernelIdeal.sig) → Buf (Elt Ideal) ℓ) (ρ : Dev Cert.KernelIdeal.nD → PrngReg)

/-- Every weakly fair execution of the first program ends with its result buffer at its host operations' fold over
    what the region leaves, and its arguments unchanged. -/
theorem kernel_run :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v35) = after (opsK (F := Ideal)) (leaves m c) (Proc.devRef .tc Cert.KernelIdeal.main_v35)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ h c =>
    ⟨(h c).2 Cert.KernelIdeal.main_v35 (Pipeline.mem_restRefs_of Cert.KernelIdeal.main_v35 (by decide) (by decide)),
      ((h c).1 0).trans (((dats m 0 c).arrAt_in 0 rfl _).trans ((A_eq m c 0).trans (V_main_arg0 m c))),
      ((h c).2 Cert.KernelIdeal.main_arg1 (Pipeline.mem_restRefs_of Cert.KernelIdeal.main_arg1 (by decide) (by decide))).trans (W_main_arg1 m (dats m) c),
      ((h c).2 Cert.KernelIdeal.main_arg2 (Pipeline.mem_restRefs_of Cert.KernelIdeal.main_arg2 (by decide) (by decide))).trans (W_main_arg2 m (dats m) c),
      ((h c).1 1).trans (((dats m 0 c).arrAt_in 1 rfl _).trans ((A_eq m c 1).trans (V_main_arg3 m c)))⟩)
    (run_main m ρ)

end Run

/-! ## The second program's run, its result as the fold of its host operations -/

section RefRun

open Cert.ReferenceIdeal Cert.ReferenceIdeal.Value

variable (m' : (ℓ : Loc Cert.ReferenceIdeal.nD Cert.ReferenceIdeal.τ Cert.ReferenceIdeal.sig) → Buf (Elt Ideal) ℓ) (ρ' : Dev Cert.ReferenceIdeal.nD → PrngReg)

set_option maxRecDepth 8192 in
set_option maxHeartbeats 2000000 in
/-- Every weakly fair execution of the second program ends with its result buffer at the fold of its host operations
    over the launch contents, and its arguments unchanged (no operation writes an argument). -/
theorem ref_run :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v38) = after (Cert.ReferenceIdeal.Value.ops (F := Ideal)) (launchContents m' c) (Proc.devRef .tc Cert.ReferenceIdeal.main_v38)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono (fun _ h c => ⟨h c Cert.ReferenceIdeal.main_v38,
      (h c Cert.ReferenceIdeal.main_arg0).trans (by after_results_simp <;> rfl),
      (h c Cert.ReferenceIdeal.main_arg1).trans (by after_results_simp <;> rfl),
      (h c Cert.ReferenceIdeal.main_arg2).trans (by after_results_simp <;> rfl),
      (h c Cert.ReferenceIdeal.main_arg3).trans (by after_results_simp <;> rfl)⟩)
    (run_seq scopedRefs_eq scopedSems_eq Cert.ReferenceIdeal.defs Cert.ReferenceIdeal.main (fun _ => ops) main_eq (fun _ => ops_sub) m' ρ')

end RefRun

end Cert.Bridge

end
-- ==== Proof.lean ====
/-
  Per-class means of labelled rows, normalised and averaged into prototypes: the kernel against its reference.

  Both programs take 131072 rows `z` of 256 floats, an int32 label per row, 1000 prototype rows and a flag per class.
  Both first form, for every class `c` and column `d`, the sum of `z n d` over the rows `n` whose label is `c`, and
  the number of such rows; a label outside `0 … 999` belongs to no class in either program. The reference does it by two
  accumulating scatters. The kernel compares a column of class numbers with a row of labels, which gives a 0/1 matrix,
  multiplies it with the rows chunk by chunk (2048 rows a chunk, four chunks a grid point, eight points a half, two
  halves), sums its columns for the counts, and adds the two halves on the host. At the extended reals, where a change
  of float format is the identity and addition is commutative and associative, both are the same sums over the same rows
  (`Cert.SegMean.classSum`, `classCount`): a stretch of rows after a stretch is the longer stretch, `1 · x = x` and
  `0 · x = 0`. From there on both programs apply the same forty-two operations (mean per class, two normalisations, the
  moving average, two selections) to buffers paired by position, so equal sums and counts give equal results; those
  operations are stepped side by side and never opened. Neither finiteness nor a range of the labels is used.

  The modules: Spec (the sums over ranges of rows), RefScatter (the reference's scatters are those sums), Payload (what
  one chunk adds), TripRead and CaseRead (what the loop and each of the body's three cases leave in the accumulators),
  PointValue and KernelValue (point by point, then the two partial arrays), Combine (the halves added), TailSim with
  LibAgree (the shared operations in lockstep), RefRun (the reference's operations as a list and its run), Bridge (the
  two results are one array). The eight format round trips the idealisation removed are each the identity at the
  extended reals and the rounding through the narrow format on words.
-/
import proofs.«409254_j45569603010859_3_alg».proof.Defs
import proofs.«409254_j45569603010859_3_alg».proof.Proof.Gen.Kernel
import proofs.«409254_j45569603010859_3_alg».proof.Proof.Gen.Kernel.Skeleton
import proofs.«409254_j45569603010859_3_alg».proof.Proof.Gen.Kernel.Loops
import proofs.«409254_j45569603010859_3_alg».proof.Proof.Gen.Kernel.Launch
import proofs.«409254_j45569603010859_3_alg».proof.Proof.Gen.Kernel.Points
import proofs.«409254_j45569603010859_3_alg».proof.Proof.Gen.Kernel.Frame
import proofs.«409254_j45569603010859_3_alg».proof.Proof.Gen.KernelIdeal
import proofs.«409254_j45569603010859_3_alg».proof.Proof.Gen.KernelIdeal.Skeleton
import proofs.«409254_j45569603010859_3_alg».proof.Proof.Gen.KernelIdeal.Loops
import proofs.«409254_j45569603010859_3_alg».proof.Proof.Gen.KernelIdeal.Launch
import proofs.«409254_j45569603010859_3_alg».proof.Proof.Gen.KernelIdeal.Points
import proofs.«409254_j45569603010859_3_alg».proof.Proof.Gen.KernelIdeal.Frame
import proofs.«409254_j45569603010859_3_alg».proof.Proof.Gen.ReferenceIdeal
import proofs.«409254_j45569603010859_3_alg».proof.Proof.Gen.Pre_finite_inputs
import proofs.«409254_j45569603010859_3_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: it runs, and none of them writes an argument. -/
theorem frame_ri : Cert.frame_ReferenceIdeal := fun m ρ _ =>
  (θ_run Cert.ReferenceIdeal.defs _ _).mono (fun _ h c => (h c).2) (Cert.Bridge.ref_run m ρ)

/-- Each of the eight narrowings of a column of group sums followed by the widening back is the identity at the
    extended reals, and the rounding through the narrow format on words. -/
theorem preserves : Cert.preserves_Kernel_KernelIdeal :=
  have st := IdealRules.truncf_extf.statement Cert.KernelIdeal.S1000x1 .f32 .bf16
  ⟨st, st, st, st, st, st, st, st⟩

/-- From memories agreeing on the arguments both programs end with the same result: the first's host operations folded
    over what its region leaves, which is what the second's leave (`Cert.Bridge.results_agree`). -/
theorem algebraic : Cert.algebraic_KernelIdeal_ReferenceIdeal := by
  intro m ρ m' ρ' _ hagree
  refine ⟨fun c => StableHlo.after (Cert.TailSim.opsK (F := Ideal)) (Cert.Bridge.leaves m c) (Proc.devRef .tc Cert.KernelIdeal.main_v35),
    Cert.Bridge.kernel_run m ρ, ?_⟩
  exact (θ_run Cert.ReferenceIdeal.defs _ _).mono
    (fun _ h c => ⟨(h c).1.trans (Cert.Bridge.results_agree m m' hagree c), (h c).2⟩) (Cert.Bridge.ref_run m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
